-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S200000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x256 .f32) (main_arg7 : FVec F S128 .f32) (main_arg8 : IVec S1000000 32) (main_arg9 : IVec S1000000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S4000x128 : Shape := ⟨2, ![4000, 128]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S1x128 : Shape := ⟨2, ![1, 128]⟩
abbrev S200000 : Shape := ⟨1, ![200000]⟩
abbrev S200000x1 : Shape := ⟨2, ![200000, 1]⟩
abbrev S2000x128 : Shape := ⟨2, ![2000, 128]⟩

abbrev nBuf : Space → Nat
  | .hbm => 82
  | .vmem => 28
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1000000, .i32⟩
  | .hbm, ⟨9, _⟩ => ⟨S1000000, .i32⟩
  | .hbm, ⟨10, _⟩ => ⟨S128x128, .f32⟩
  | .hbm, ⟨11, _⟩ => ⟨S200000x128, .f32⟩
  | .hbm, ⟨12, _⟩ => ⟨S128x128, .f32⟩
  | .hbm, ⟨13, _⟩ => ⟨S50000x128, .f32⟩
  | .hbm, ⟨14, _⟩ => ⟨S_, .f32⟩
  | .hbm, ⟨15, _⟩ => ⟨S1000000, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S50000x128, .f32⟩
  | .hbm, ⟨27, _⟩ => ⟨S1000000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S1000000x1, .i32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S200000x128, .f32⟩
  | .hbm, ⟨50, _⟩ => ⟨S1000000x1, .i32⟩
  | .hbm, ⟨51, _⟩ => ⟨S200000x128, .f32⟩
  | .hbm, ⟨52, _⟩ => ⟨S_, .f32⟩
  | .hbm, ⟨53, _⟩ => ⟨S200000, .f32⟩
  | .hbm, ⟨54, _⟩ => ⟨S1000000x1, .i32⟩
  | .hbm, ⟨55, _⟩ => ⟨S200000, .f32⟩
  | .hbm, ⟨56, _⟩ => ⟨S200000x1, .f32⟩
  | .hbm, ⟨57, _⟩ => ⟨S1x128, .f32⟩
  | .hbm, ⟨58, _⟩ => ⟨S200000x128, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S200000x1, .f32⟩
  | .hbm, ⟨66, _⟩ => ⟨S200000x128, .f32⟩
  | .hbm, ⟨67, _⟩ => ⟨S200000x128, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S1x128, .f32⟩
  | .hbm, ⟨79, _⟩ => ⟨S200000x128, .f32⟩
  | .hbm, ⟨80, _⟩ => ⟨S1x128, .f32⟩
  | .hbm, ⟨81, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  slices_S128x256_S128x128_0_0 : S128x256.Slices ![0, 0] S128x128
  slices_S128x256_S128x128_0_128 : S128x256.Slices ![0, 128] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S4000x128_S128x128_S4000x128_1_0_0_1_n_n_wf : DotDims.WF S4000x128 S128x128 S4000x128 [1] [0] [0] [1] [] []
  dot_S5000x128_S128x128_S5000x128_1_0_0_1_n_n_wf : DotDims.WF S5000x128 S128x128 S5000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S200000x128.size a
  hwx2_1 : ∀ i : grid2.Coords, EltTy.bits .f32 = 32 ∨ (Rect.block (s := S200000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S200000x128.size a
  hwx2_5 : ∀ i : grid2.Coords, EltTy.bits .f32 = 32 ∨ (Rect.block (s := S200000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S50000 : Shape := ⟨1, ![50000]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S50000x1 : Shape := ⟨2, ![50000, 1]⟩
abbrev S50000x256 : Shape := ⟨2, ![50000, 256]⟩

abbrev nBuf : Space → Nat
  | .hbm => 108
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S128x128, .f32⟩
  | .hbm, ⟨22, _⟩ => ⟨S1000000x128, .f32⟩
  | .hbm, ⟨23, _⟩ => ⟨S1x128, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S50000x128, .f32⟩
  | .hbm, ⟨28, _⟩ => ⟨S1000000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S1000000x1, .i32⟩
  | .hbm, ⟨33, _⟩ => ⟨S50000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S128x128, .f32⟩
  | .hbm, ⟨44, _⟩ => ⟨S1000000x128, .f32⟩
  | .hbm, ⟨45, _⟩ => ⟨S1x128, .f32⟩
  | .hbm, ⟨46, _⟩ => ⟨S1000000x128, .f32⟩
  | .hbm, ⟨47, _⟩ => ⟨S1000000x128, .f32⟩
  | .hbm, ⟨48, _⟩ => ⟨S_, .f32⟩
  | .hbm, ⟨49, _⟩ => ⟨S200000x128, .f32⟩
  | .hbm, ⟨50, _⟩ => ⟨S1000000x1, .i32⟩
  | .hbm, ⟨51, _⟩ => ⟨S200000x128, .f32⟩
  | .hbm, ⟨52, _⟩ => ⟨S_, .f32⟩
  | .hbm, ⟨53, _⟩ => ⟨S200000, .f32⟩
  | .hbm, ⟨54, _⟩ => ⟨S1000000x1, .i32⟩
  | .hbm, ⟨55, _⟩ => ⟨S200000, .f32⟩
  | .hbm, ⟨56, _⟩ => ⟨S_, .f32⟩
  | .hbm, ⟨57, _⟩ => ⟨S200000, .f32⟩
  | .hbm, ⟨58, _⟩ => ⟨S200000, .f32⟩
  | .hbm, ⟨59, _⟩ => ⟨S200000x1, .f32⟩
  | .hbm, ⟨60, _⟩ => ⟨S200000x128, .f32⟩
  | .hbm, ⟨61, _⟩ => ⟨S200000x128, .f32⟩
  | .hbm, ⟨62, _⟩ => ⟨S200000x256, .f32⟩
  | .hbm, ⟨63, _⟩ => ⟨S256x128, .f32⟩
  | .hbm, ⟨64, _⟩ => ⟨S200000x128, .f32⟩
  | .hbm, ⟨65, _⟩ => ⟨S1x128, .f32⟩
  | .hbm, ⟨66, _⟩ => ⟨S200000x128, .f32⟩
  | .hbm, ⟨67, _⟩ => ⟨S200000x128, .f32⟩
  | .hbm, ⟨68, _⟩ => ⟨S200000x128, .f32⟩
  | .hbm, ⟨69, _⟩ => ⟨S200000x128, .f32⟩
  | .hbm, ⟨70, _⟩ => ⟨S_, .f32⟩
  | .hbm, ⟨71, _⟩ => ⟨S200000x128, .f32⟩
  | .hbm, ⟨72, _⟩ => ⟨S200000x128, .f32⟩
  | .hbm, ⟨73, _⟩ => ⟨S_, .f32⟩
  | .hbm, ⟨74, _⟩ => ⟨S200000x128, .f32⟩
  | .hbm, ⟨75, _⟩ => ⟨S200000x128, .f32⟩
  | .hbm, ⟨76, _⟩ => ⟨S200000x128, .f32⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S200000x128, .f32⟩
  | .hbm, ⟨81, _⟩ => ⟨S200000x128, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x256, .f32⟩
  | .hbm, ⟨89, _⟩ => ⟨S256x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S50000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S50000x128 : S_.BroadcastsInDim S50000x128 (![] : Fin 0 → Fin S50000x128.rank)
  bcast_S_S50000 : S_.BroadcastsInDim S50000 (![] : Fin 0 → Fin S50000.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S1x128_S200000x128_0_1 : S1x128.BroadcastsInDim S200000x128 (![0, 1] : Fin 2 → Fin S200000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S200000x128_S1000000x1_S1000000x128_1_0_n_n_0_1_1128_wf : GatherDims.WF S200000x128 S1000000x1 S1000000x128 [1] [0] [] [0] [] 1 ![1, 128]
  dot_S1000000x128_S128x128_S1000000x128_1_0_0_1_n_n_wf : DotDims.WF S1000000x128 S128x128 S1000000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x256_S256x128_S200000x128_1_0_0_1_n_n_wf : DotDims.WF S200000x256 S256x128 S200000x128 [1] [0] [0] [1] [] []
  dot_S50000x256_S256x128_S50000x128_1_0_0_1_n_n_wf : DotDims.WF S50000x256 S256x128 S50000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The two programs written as plain formulas of the argument arrays, entry by entry.

  Tables `X : [n_in, 128]` are mapped by a 128 x 128 matrix `W` (a row `x` goes to `x · Wᵀ`), rows are picked by an
  index column `g` (read signed, clamped to the table), messages are summed per destination row named by a second
  index column `s` (read signed, a destination outside the table receives nothing), and the per-destination mean
  is blended with the destination's own row through a sigmoid gate over the 256-wide concatenation.

  The kernel applies the matrix to the whole table first and adds the bias once per destination, times the number
  of messages; the reference applies matrix and bias to every gathered row. The kernel splits the gate's
  256-term product into two 128-term products.
-/
import Idealize.ShloMosaic.Lib.ValueIdx
import Idealize.ShloMosaic.PureOps.Ideal

noncomputable section

namespace Cert.Spec

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Vc (a : ℕ) : Type := (⟨1, ![a]⟩ : Shape).Idx → EReal
/-- A column of 32-bit index words. -/
abbrev ICol (E : ℕ) : Type := (⟨2, ![E, 1]⟩ : Shape).Idx → BitVec 32

/-- The array whose entry at `(r, j)` is `f r j`. -/
def ofFn2 {a b : ℕ} (f : Fin a → Fin b → EReal) : Mat a b :=
  fun i => f ⟨(i 0).val, idx2_lt0 i⟩ ⟨(i 1).val, idx2_lt1 i⟩

theorem ofFn2_apply {a b : ℕ} (f : Fin a → Fin b → EReal) (r : Fin a) (j : Fin b) : ofFn2 f (ix2 r j) = f r j := rfl

/-- Every array is the array of its entries. -/
theorem eq_ofFn2 {a b : ℕ} (M : Mat a b) : M = ofFn2 fun r j => M (ix2 r j) := by
  funext i
  conv_lhs => rw [eq_ix2 i]
  rfl

/-- The row a gather reads for the index word `v`: read signed, clamped into `[0, N − 1]`. -/
def rowAt (N : ℕ) (hN : 0 < N) (v : BitVec 32) : Fin N := ⟨min v.toInt.toNat (N - 1), by omega⟩

/-- Message `e` is addressed to destination row `n`: its index word, read signed, is `n`. -/
def hit {E : ℕ} (s : ICol E) (e : Fin E) (n : ℕ) : Prop := (s (ix2 e (0 : Fin 1))).toInt = (n : ℤ)

instance {E : ℕ} (s : ICol E) (e : Fin E) (n : ℕ) : Decidable (hit s e n) := by unfold hit; infer_instance

/-- An index vector as the column a scatter reads. -/
def sCol {E : ℕ} (v : (⟨1, ![E]⟩ : Shape).Idx → BitVec 32) : ICol E := fun i => v (ix1 ⟨(i 0).val, idx2_lt0 i⟩)

/-- An index word as a gather takes it from `x[i]`: a negative word counts from the end of a table of `N` rows. -/
def gWord (N : BitVec 32) (v : BitVec 32) : BitVec 32 := Scalar.select (IntOp.cmpi .slt v 0#32) (IntOp.addi v N) v

/-- An index vector as the column a gather reads: every word wrapped once. -/
def gCol {E : ℕ} (N : BitVec 32) (v : (⟨1, ![E]⟩ : Shape).Idx → BitVec 32) : ICol E :=
  fun i => gWord N (v (ix1 ⟨(i 0).val, idx2_lt0 i⟩))

theorem sCol_apply {E : ℕ} (v : (⟨1, ![E]⟩ : Shape).Idx → BitVec 32) (e : Fin E) (u : Fin 1) : sCol v (ix2 e u) = v (ix1 e) := rfl
theorem gCol_apply {E : ℕ} (N : BitVec 32) (v : (⟨1, ![E]⟩ : Shape).Idx → BitVec 32) (e : Fin E) (u : Fin 1) :
    gCol N v (ix2 e u) = gWord N (v (ix1 e)) := rfl

/-- Row `r` of `X` times `Wᵀ`, at column `j`. -/
def lin {n : ℕ} (X : Mat n 128) (W : Mat 128 128) (r : Fin n) (j : Fin 128) : EReal :=
  ∑ k : Fin 128, X (ix2 r k) * W (ix2 j k)

/-- How many messages destination `n` receives. -/
def cnt {E : ℕ} (s : ICol E) (n : ℕ) : EReal := ∑ e : Fin E, if hit s e n then (1 : EReal) else 0

/-- The kernel's mean message: the mapped table gathered and summed per destination, the bias added once
    times the count, divided by the count (at least one). -/
def meanK {nin nout E : ℕ} (hin : 0 < nin) (X : Mat nin 128) (W : Mat 128 128) (b : Vc 128) (g s : ICol E)
    (n : Fin nout) (j : Fin 128) : EReal :=
  Ideal.div ((∑ e : Fin E, if hit s e n.val then lin X W (rowAt nin hin (g (ix2 e (0 : Fin 1)))) j else 0)
      + cnt s n.val * b (ix1 j)) (max (cnt s n.val) 1)

/-- The kernel's mean message over the table mapped already (`T = X · Wᵀ`). -/
def meanKT {nin nout E : ℕ} (hin : 0 < nin) (T : Mat nin 128) (b : Vc 128) (g s : ICol E)
    (n : Fin nout) (j : Fin 128) : EReal :=
  Ideal.div ((∑ e : Fin E, if hit s e n.val then T (ix2 (rowAt nin hin (g (ix2 e (0 : Fin 1)))) j) else 0)
      + cnt s n.val * b (ix1 j)) (max (cnt s n.val) 1)

theorem meanKT_lin {nin nout E : ℕ} (hin : 0 < nin) (X : Mat nin 128) (W : Mat 128 128) (b : Vc 128) (g s : ICol E) :
    meanKT (nout := nout) hin (ofFn2 (lin X W)) b g s = meanK hin X W b g s := rfl

/-- The reference's mean message: every gathered row mapped and biased, summed per destination, divided by the
    count (at least one). -/
def meanR {nin nout E : ℕ} (hin : 0 < nin) (X : Mat nin 128) (W : Mat 128 128) (b : Vc 128) (g s : ICol E)
    (n : Fin nout) (j : Fin 128) : EReal :=
  Ideal.div (∑ e : Fin E, if hit s e n.val then lin X W (rowAt nin hin (g (ix2 e (0 : Fin 1)))) j + b (ix1 j) else 0)
    (max (cnt s n.val) 1)

/-- The kernel's gate logit: the row against the left half of `Wg`, the mean against its right half, the bias. -/
def logitK {n : ℕ} (X M : Mat n 128) (Wg : Mat 128 256) (bg : Vc 128) (r : Fin n) (j : Fin 128) : EReal :=
  ((∑ k : Fin 128, X (ix2 r k) * Wg (ix2 j (⟨k.val, by omega⟩ : Fin 256)))
    + (∑ k : Fin 128, M (ix2 r k) * Wg (ix2 j (⟨128 + k.val, by omega⟩ : Fin 256)))) + bg (ix1 j)

/-- Entry `k` of row `r` of the concatenation `[X | M]`. -/
def cat {n : ℕ} (X M : Mat n 128) (r : Fin n) (k : Fin 256) : EReal :=
  if h : k.val < 128 then X (ix2 r ⟨k.val, h⟩) else M (ix2 r ⟨k.val - 128, by omega⟩)

/-- The reference's gate logit: the concatenated row against `Wg`, the bias. -/
def logitR {n : ℕ} (X M : Mat n 128) (Wg : Mat 128 256) (bg : Vc 128) (r : Fin n) (j : Fin 128) : EReal :=
  (∑ k : Fin 256, cat X M r k * Wg (ix2 j k)) + bg (ix1 j)

/-- The plain product of `X` with a matrix given transposed already, at `(r, j)`. -/
def mm {n : ℕ} (X : Mat n 128) (Wt : Mat 128 128) (r : Fin n) (j : Fin 128) : EReal :=
  ∑ k : Fin 128, X (ix2 r k) * Wt (ix2 k j)

/-- The blend `g · x + (1 − g) · m`. -/
def blend (g x m : EReal) : EReal := g * x + (1 - g) * m

/-- The kernel's output entry: the gate is the logistic function of the logit. -/
def fuseK {n : ℕ} (X M : Mat n 128) (Wg : Mat 128 256) (bg : Vc 128) (r : Fin n) (j : Fin 128) : EReal :=
  blend (Ideal.logistic (logitK X M Wg bg r j)) (X (ix2 r j)) (M (ix2 r j))

/-- The reference's output entry: the gate is `1 / (1 + exp (−logit))`. -/
def fuseR {n : ℕ} (X M : Mat n 128) (Wg : Mat 128 256) (bg : Vc 128) (r : Fin n) (j : Fin 128) : EReal :=
  blend (Ideal.div 1 (1 + Ideal.exp (-(logitR X M Wg bg r j)))) (X (ix2 r j)) (M (ix2 r j))

/-- What one grid step of the gated blend computes, over the operands as the region finds them: both weight
    halves transposed already, the bias a one-row matrix. -/
def fuseRaw {n : ℕ} (X M : Mat n 128) (Wrt Wmt : Mat 128 128) (b2 : Mat 1 128) (r : Fin n) (j : Fin 128) : EReal :=
  blend (Ideal.logistic ((mm X Wrt r j + mm M Wmt r j) + b2 (ix2 (0 : Fin 1) j))) (X (ix2 r j)) (M (ix2 r j))

/-- The kernel's result for one table: its rows blended with the kernel's mean messages from the other table. -/
def outK {nin nout E : ℕ} (hin : 0 < nin) (Y : Mat nout 128) (X : Mat nin 128) (W : Mat 128 128) (b : Vc 128)
    (Wg : Mat 128 256) (bg : Vc 128) (g s : ICol E) : Mat nout 128 :=
  ofFn2 (fuseK Y (ofFn2 (meanK hin X W b g s)) Wg bg)

/-- The reference's result for one table. -/
def outR {nin nout E : ℕ} (hin : 0 < nin) (Y : Mat nout 128) (X : Mat nin 128) (W : Mat 128 128) (b : Vc 128)
    (Wg : Mat 128 256) (bg : Vc 128) (g s : ICol E) : Mat nout 128 :=
  ofFn2 (fuseR Y (ofFn2 (meanR hin X W b g s)) Wg bg)

/-- Every entry is a real number. -/
def Fin2 {a b : ℕ} (M : Mat a b) : Prop := ∀ i, ∃ r : ℝ, M i = (r : EReal)
/-- Every entry is a real number. -/
def Fin1 {a : ℕ} (v : Vc a) : Prop := ∀ i, ∃ r : ℝ, v i = (r : EReal)

end Cert.Spec

end
-- ==== Proof.SpecBridge.lean ====
/-
  The kernel's operands as the regions find them — both halves of the gate matrix transposed, the bias a one-row
  matrix, the table mapped by a transposed matrix — against the formulas stated over the arguments themselves.
-/
import proofs.«169236_j47390669144622_1_alg».proof.Proof.Spec

noncomputable section

namespace Cert.Spec

open Idealize.ShloMosaic Idealize.ShloMosaic.ValueIdx

/-- The transpose of a 128 x 128 matrix, as an array. -/
def tr (W : Mat 128 128) : Mat 128 128 := ofFn2 fun k j => W (ix2 j k)
/-- The left half of the gate matrix, transposed. -/
def trL (Wg : Mat 128 256) : Mat 128 128 := ofFn2 fun k j => Wg (ix2 j (⟨k.val, by omega⟩ : Fin 256))
/-- The right half of the gate matrix, transposed. -/
def trR (Wg : Mat 128 256) : Mat 128 128 := ofFn2 fun k j => Wg (ix2 j (⟨128 + k.val, by omega⟩ : Fin 256))
/-- A vector as a one-row matrix. -/
def row1 (b : Vc 128) : Mat 1 128 := ofFn2 fun _ j => b (ix1 j)

/-- The plain product with the transposed matrix is the product with the matrix's rows. -/
theorem mm_tr {n : ℕ} (X : Mat n 128) (W : Mat 128 128) : mm X (tr W) = lin X W := rfl

/-- The blend over the region's operands is the kernel's blend over the arguments. -/
theorem fuseRaw_tr {n : ℕ} (X M : Mat n 128) (Wg : Mat 128 256) (bg : Vc 128) :
    fuseRaw X M (trL Wg) (trR Wg) (row1 bg) = fuseK X M Wg bg := rfl

/-- The kernel's result, from what its last region is handed. -/
theorem outK_of_raw {nin nout E : ℕ} (hin : 0 < nin) (Y : Mat nout 128) (X : Mat nin 128) (W : Mat 128 128) (b : Vc 128)
    (Wg : Mat 128 256) (bg : Vc 128) (g s : ICol E) :
    ofFn2 (fuseRaw Y (ofFn2 (meanKT hin (ofFn2 (mm X (tr W))) b g s)) (trL Wg) (trR Wg) (row1 bg))
      = outK hin Y X W b Wg bg g s := rfl

end Cert.Spec

end
-- ==== Proof.LibGather.lean ====
/-
  A row gather read at an index, over any extents: `x[idx]` for a table `[N, C]` and an index column `[E, 1]`
  gives row `e` of the result the table's row named by word `e`, read signed and clamped into `[0, N − 1]`.
  And the matrix unit's product into a zero accumulator, rows by columns, as a sum over the shared coordinate.
-/
import Idealize.ShloMosaic.Lib.ValueIdx
import Idealize.ShloMosaic.PureOps.Ideal.Laws

noncomputable section

namespace Cert.LibGather

open Idealize.ShloMosaic Idealize.ShloMosaic.ValueIdx

/-- Dimension numbers of a row gather: result axis 1 is the offset, operand axis 0 is collapsed and indexed,
    whole rows are sliced. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, j)` of a row gather: column `j` of the table's row named by index word `e`, clamped. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    -- axis 0 is collapsed: no offset; its start is the clamped index word (the slice there has one row)
    show (rowGatherDims N E C wf).start (ix2 e j) idx (0 : Fin 2) + (rowGatherDims N E C wf).batchCoord (ix2 e j) (0 : Fin 2)
      + (rowGatherDims N E C wf).offCoord (ix2 e j) (0 : Fin 2) = _
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGatherDims N E C wf).startIndexMap from List.mem_singleton.mpr rfl)]
    have hsi : (rowGatherDims N E C wf).siIdx (ix2 e j)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is not indexed: its start is 0, and the offset coordinate is the result's column
    have hne : (1 : Fin 2) ∉ ([0] : List (Fin 2)) := fun h => absurd (List.mem_singleton.mp h) (by decide)
    have hstart : (rowGatherDims N E C wf).start (ix2 e j) idx (1 : Fin 2) = 0 := by
      unfold GatherDims.start
      rw [dif_neg (show (1 : Fin 2) ∉ (rowGatherDims N E C wf).startIndexMap from hne)]
    have hoff : (rowGatherDims N E C wf).offCoord (ix2 e j) (1 : Fin 2) = j.val := by
      unfold GatherDims.offCoord
      rw [dif_pos (show (1 : Fin 2) ∈ (rowGatherDims N E C wf).sKept from
        (GatherDims.mem_sKept _ _).mpr ⟨hne, List.not_mem_nil⟩)]
      rfl
    show (rowGatherDims N E C wf).start (ix2 e j) idx (1 : Fin 2) + (rowGatherDims N E C wf).batchCoord (ix2 e j) (1 : Fin 2)
      + (rowGatherDims N E C wf).offCoord (ix2 e j) (1 : Fin 2) = _
    rw [GatherDims.batchCoord_eq_zero _ _ _ List.not_mem_nil, hstart, hoff, Nat.add_zero, Nat.zero_add]

/-- The matrix unit's rows-by-columns product into the zero accumulator, read at `(a, b)`: `∑ c, A[a, c] · B[c, b]`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  -- the sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibGather

end
-- ==== Proof.KRegion01.lean ====
/-
  What each grid region leaves in its output array, as one function of the arrays the region finds.
-/
import proofs.«169236_j47390669144622_1_alg».proof.Proof.Gen.KernelIdeal.Frame
import proofs.«169236_j47390669144622_1_alg».proof.Proof.Spec
import proofs.«169236_j47390669144622_1_alg».proof.Proof.LibGather
import Idealize.ShloMosaic.Lib.Pipeline.Value
import Idealize.ShloMosaic.Lib.ValueLayout

noncomputable section

namespace Cert.KernelIdeal.KRegion01

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offsets of a whole-block rectangle are zero. -/
theorem hz : (![0, 0] : Fin 2 → Nat) = fun _ => 0 := funext fun a => by fin_cases a <;> rfl

/-! ## Region 0: the steps -/

/-- The product's dimension numbers are the plain rows-by-columns ones. -/
theorem dot0_eq : dot_S4000x128_S128x128_S4000x128_1_0_0_1_n_n = DotDims.plain 4000 128 128 := rfl

/-- One grid step's result at `(p, q)`: row `p` of the row block against column `q` of the matrix. -/
theorem pay0_apply (x0 : Vec Ideal S4000x128 .f32) (x1 : Vec Ideal S128x128 .f32) (p : Fin 4000) (q : Fin 128) :
    k0_pay1 (F := Ideal) x0 x1 (ix2 p q) = ∑ k : Fin 128, x0 (ix2 p k) * x1 (ix2 k q) := by
  unfold k0_pay1
  rw [dot0_eq]
  refine (Cert.LibGather.matmul_plain_zero_apply none _ _ p q).trans ?_
  refine Finset.sum_congr rfl fun k _ => ?_
  rw [truncf_apply, truncf_apply, shapeCast_self]

/-- The printed index maps over the grid: the row blocks of input and output move together; every other block
    index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem idx_onto0 : ∀ q0 : Fin 50, ∃ t : Fin cfg0.N, win0_2.index t = ![q0.val, 0] :=
  (by decide +kernel : ∀ q0 : Fin 50, ∃ t : Fin grid0.N, win0_2.index t = ![q0.val, 0])

/-- Where entry `(p, q)` of the output block of point `t` sits in the array: row `4000 · block + p`. -/
theorem emb0_2 (t : Fin cfg0.N) (p : Fin 4000) (q : Fin 128) (r : Fin 200000)
    (hr : r.val = win0_2.index t (0 : Fin 2) * 4000 + p.val) :
    ((cfg0.win 2).blk t).view.emb (ix2 p q) = (ix2 r q : S200000x128.Idx) := by
  obtain ⟨-, -, -, -, e4, -⟩ := idx_facts0 t
  funext a; apply Fin.ext
  match a with
  | ⟨0, _⟩ => show win0_2.index t (0 : Fin 2) * 4000 + 1 * p.val = r.val; omega
  | ⟨1, _⟩ => show win0_2.index t (1 : Fin 2) * 128 + 1 * q.val = q.val; omega

/-- The table's block of point `t` sits under the output's block: the same rows. -/
theorem emb0_0 (t : Fin cfg0.N) (p : Fin 4000) (k : Fin 128) (r : Fin 200000)
    (hr : r.val = win0_2.index t (0 : Fin 2) * 4000 + p.val) :
    ((cfg0.win 0).blk t).view.emb (ix2 p k) = (ix2 r k : S200000x128.Idx) := by
  obtain ⟨e0, e1, -, -, -, -⟩ := idx_facts0 t
  funext a; apply Fin.ext
  match a with
  | ⟨0, _⟩ => show win0_0.index t (0 : Fin 2) * 4000 + 1 * p.val = r.val; omega
  | ⟨1, _⟩ => show win0_0.index t (1 : Fin 2) * 128 + 1 * k.val = k.val; omega

/-- The matrix's one block is the whole matrix at every point. -/
theorem emb0_1 (t : Fin cfg0.N) (k : Fin 128) (q : Fin 128) :
    ((cfg0.win 1).blk t).view.emb (ix2 k q) = (ix2 k q : S128x128.Idx) := by
  obtain ⟨-, -, e2, e3, -, -⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The table's block of point `t` read at `(p, k)`: the table at row `4000 · block + p`. -/
theorem iblk0_0_apply (c : Dev nD) (t : Fin cfg0.N) (p : Fin 4000) (k : Fin 128) (r : Fin 200000)
    (hr : r.val = win0_2.index t (0 : Fin 2) * 4000 + p.val) :
    iblk0 V c 0 t (ix2 p k) = (V c main_arg0 : Spec.Mat 200000 128) (ix2 r k) := by
  show (V c main_arg0 : Spec.Mat 200000 128) (((cfg0.win 0).blk t).view.emb (ix2 p k)) = _
  rw [emb0_0 t p k r hr]

/-- The matrix's block read at `(k, q)`: the matrix there. -/
theorem iblk0_1_apply (c : Dev nD) (t : Fin cfg0.N) (k : Fin 128) (q : Fin 128) :
    iblk0 V c 1 t (ix2 k q) = (V c main_v0 : Spec.Mat 128 128) (ix2 k q) := by
  show (V c main_v0 : Spec.Mat 128 128) (((cfg0.win 1).blk t).view.emb (ix2 k q)) = _
  rw [emb0_1 t k q]

/-- What point `t` writes back is its block of the product of the table and the matrix as the region finds them. -/
theorem flushed0_eq (c : Dev nD) (t : Fin cfg0.N) :
    (dat0 (F := Ideal) V c).flushed 2 t = ((cfg0.win 2).blk t).view.read (Elt Ideal)
      (Spec.ofFn2 (Spec.mm (V c main_arg0 : Spec.Mat 200000 128) (V c main_v0 : Spec.Mat 128 128))) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  refine funext fun (j : S4000x128.Idx) => ?_
  obtain ⟨p, q, rfl⟩ : ∃ (p : Fin 4000) (q : Fin 128), j = ix2 p q := ⟨j 0, j 1, eq_ix2 j⟩
  obtain ⟨-, -, -, -, -, e5⟩ := idx_facts0 t
  have hr : win0_2.index t (0 : Fin 2) * 4000 + p.val < 200000 := by have := p.isLt; omega
  show k0_pay1 (F := Ideal) (iblk0 V c 0 t) (iblk0 V c 1 t) (ix2 p q)
    = Spec.ofFn2 (Spec.mm (V c main_arg0 : Spec.Mat 200000 128) (V c main_v0 : Spec.Mat 128 128))
        (((cfg0.win 2).blk t).view.emb (ix2 p q))
  rw [pay0_apply, emb0_2 t p q ⟨_, hr⟩ rfl, Spec.ofFn2_apply]
  unfold Spec.mm
  refine Finset.sum_congr rfl fun k _ => ?_
  rw [iblk0_0_apply V c t p k ⟨_, hr⟩ rfl, iblk0_1_apply V c t k q]

/-- An index of the array is in point `t`'s block iff each coordinate is in the block's range on its axis. -/
theorem mem_blk0 (t : Fin cfg0.N) (i : S200000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v1).slice (win0_2.rect t)).set ↔ _
  rw [View.set_slice_whole, Rect.mem_set_unit]
  exact Iff.rfl

/-- The 50 blocks of 4000 rows cover the array: row `r` is in the block of the point with block index `r / 4000`. -/
theorem cover0 (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-! ## Region 1: the steps -/

/-- The product's dimension numbers are the plain rows-by-columns ones. -/
theorem dot1_eq : dot_S5000x128_S128x128_S5000x128_1_0_0_1_n_n = DotDims.plain 5000 128 128 := rfl

/-- One grid step's result at `(p, q)`: row `p` of the row block against column `q` of the matrix. -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [dot1_eq]
  refine (Cert.LibGather.matmul_plain_zero_apply none _ _ p q).trans ?_
  refine Finset.sum_congr rfl fun k _ => ?_
  rw [truncf_apply, truncf_apply, shapeCast_self]

/-- The printed index maps over the grid: the row blocks of input and output move together; every other block
    index is 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- Where entry `(p, q)` of the output block of point `t` sits in the array: row `5000 · block + p`. -/
theorem emb1_2 (t : Fin cfg1.N) (p : Fin 5000) (q : Fin 128) (r : Fin 50000)
    (hr : r.val = win1_2.index t (0 : Fin 2) * 5000 + p.val) :
    ((cfg1.win 2).blk t).view.emb (ix2 p q) = (ix2 r q : S50000x128.Idx) := by
  obtain ⟨-, -, -, -, e4, -⟩ := idx_facts1 t
  funext a; apply Fin.ext
  match a with
  | ⟨0, _⟩ => show win1_2.index t (0 : Fin 2) * 5000 + 1 * p.val = r.val; omega
  | ⟨1, _⟩ => show win1_2.index t (1 : Fin 2) * 128 + 1 * q.val = q.val; omega

/-- The table's block of point `t` sits under the output's block: the same rows. -/
theorem emb1_0 (t : Fin cfg1.N) (p : Fin 5000) (k : Fin 128) (r : Fin 50000)
    (hr : r.val = win1_2.index t (0 : Fin 2) * 5000 + p.val) :
    ((cfg1.win 0).blk t).view.emb (ix2 p k) = (ix2 r k : S50000x128.Idx) := by
  obtain ⟨e0, e1, -, -, -, -⟩ := idx_facts1 t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The matrix's one block is the whole matrix at every point. -/
theorem emb1_1 (t : Fin cfg1.N) (k : Fin 128) (q : Fin 128) :
    ((cfg1.win 1).blk t).view.emb (ix2 k q) = (ix2 k q : S128x128.Idx) := by
  obtain ⟨-, -, e2, e3, -, -⟩ := idx_facts1 t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The table's block of point `t` read at `(p, k)`: the table at row `5000 · block + p`. -/
theorem iblk1_0_apply (c : Dev nD) (t : Fin cfg1.N) (p : Fin 5000) (k : Fin 128) (r : Fin 50000)
    (hr : r.val = win1_2.index t (0 : Fin 2) * 5000 + p.val) :
    iblk1 V c 0 t (ix2 p k) = (V c main_arg1 : Spec.Mat 50000 128) (ix2 r k) := by
  show (V c main_arg1 : Spec.Mat 50000 128) (((cfg1.win 0).blk t).view.emb (ix2 p k)) = _
  rw [emb1_0 t p k r hr]

/-- The matrix's block read at `(k, q)`: the matrix there. -/
theorem iblk1_1_apply (c : Dev nD) (t : Fin cfg1.N) (k : Fin 128) (q : Fin 128) :
    iblk1 V c 1 t (ix2 k q) = (V c main_v2 : Spec.Mat 128 128) (ix2 k q) := by
  show (V c main_v2 : Spec.Mat 128 128) (((cfg1.win 1).blk t).view.emb (ix2 k q)) = _
  rw [emb1_1 t k q]

/-- What point `t` writes back is its block of the product of the table and the matrix as the region finds them. -/
theorem flushed1_eq (c : Dev nD) (t : Fin cfg1.N) :
    (dat1 (F := Ideal) V c).flushed 2 t = ((cfg1.win 2).blk t).view.read (Elt Ideal)
      (Spec.ofFn2 (Spec.mm (V c main_arg1 : Spec.Mat 50000 128) (V c main_v2 : Spec.Mat 128 128))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  refine funext fun (j : S5000x128.Idx) => ?_
  obtain ⟨p, q, rfl⟩ : ∃ (p : Fin 5000) (q : Fin 128), j = ix2 p q := ⟨j 0, j 1, eq_ix2 j⟩
  obtain ⟨-, -, -, -, -, e5⟩ := idx_facts1 t
  have hr : win1_2.index t (0 : Fin 2) * 5000 + p.val < 50000 := by have := p.isLt; omega
  show k1_pay1 (F := Ideal) (iblk1 V c 0 t) (iblk1 V c 1 t) (ix2 p q)
    = Spec.ofFn2 (Spec.mm (V c main_arg1 : Spec.Mat 50000 128) (V c main_v2 : Spec.Mat 128 128))
        (((cfg1.win 2).blk t).view.emb (ix2 p q))
  rw [pay1_apply, emb1_2 t p q ⟨_, hr⟩ rfl, Spec.ofFn2_apply]
  unfold Spec.mm
  refine Finset.sum_congr rfl fun k _ => ?_
  rw [iblk1_0_apply V c t p k ⟨_, hr⟩ rfl, iblk1_1_apply V c t k q]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v3).slice (win1_2.rect t)).set ↔ _
  rw [View.set_slice_whole, Rect.mem_set_unit]
  exact Iff.rfl

/-- The 10 blocks of 5000 rows cover the array: row `r` is in the block of the point with block index `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The two arrays -/

/-- Region 0: the 200000-row table times the matrix it is handed, block of 4000 rows by block. -/
theorem arr0 (c : Dev nD) :
    ((dat0 (F := Ideal) V c).arrAt 2 cfg0.N : Spec.Mat 200000 128)
      = Spec.ofFn2 (Spec.mm (V c main_arg0 : Spec.Mat 200000 128) (V c main_v0 : Spec.Mat 128 128)) := by
  exact (dat0 (F := Ideal) V c).arrAt_eq_of_cover 2 _ (fun t _ => flushed0_eq V c t) cover0

/-- Region 1: the 50000-row table times the matrix it is handed, block of 5000 rows by block. -/
theorem arr1 (c : Dev nD) :
    ((dat1 (F := Ideal) V c).arrAt 2 cfg1.N : Spec.Mat 50000 128)
      = Spec.ofFn2 (Spec.mm (V c main_arg1 : Spec.Mat 50000 128) (V c main_v2 : Spec.Mat 128 128)) := by
  exact (dat1 (F := Ideal) V c).arrAt_eq_of_cover 2 _ (fun t _ => flushed1_eq V c t) cover1

end Cert.KernelIdeal.KRegion01

end
-- ==== Proof.KRegion23.lean ====
/-
  What each grid region leaves in its output array, as one function of the arrays the region finds.
-/
import proofs.«169236_j47390669144622_1_alg».proof.Proof.Gen.KernelIdeal.Frame
import proofs.«169236_j47390669144622_1_alg».proof.Proof.Spec
import proofs.«169236_j47390669144622_1_alg».proof.Proof.LibGather
import Idealize.ShloMosaic.Lib.Pipeline.Value
import Idealize.ShloMosaic.Lib.ValueLayout

noncomputable section

namespace Cert.KernelIdeal.KRegion23

open Idealize.ShloMosaic Idealize.ShloMosaic.TcCoe Idealize.ShloMosaic.ValueIdx Idealize.SL.Sem
open Cert.KernelIdeal Cert.KernelIdeal.Gen

/-! ## One grid step's block, entry by entry -/

/-- The word 0x3F800000 is the number one. -/
theorem one_word : Ideal.ofBits .f32 0x3F800000#32 = 1 := by
  simp [Ideal.ofBits, Ideal.ieee, -EReal.coe_mul]; norm_num

/-- The matrix unit's dimension numbers are the plain rows-by-columns product. -/
theorem dot2000_eq : dot_S2000x128_S128x128_S2000x128_1_0_0_1_n_n = DotDims.plain 2000 128 128 := rfl

/-- The gate's logit at an entry of the block: the two 128-term products and the bias row. -/
theorem logit_apply (x0 x1 : Vec Ideal S2000x128 .f32) (x2 x3 : Vec Ideal S128x128 .f32) (x4 : Vec Ideal S1x128 .f32)
    (p : Fin 2000) (q : Fin 128) :
    (addf (addf
        (matmul dot_S2000x128_S128x128_S2000x128_1_0_0_1_n_n none (truncf .bf16 x0 bitsLt_bf16_f32)
          (truncf .bf16 x2 bitsLt_bf16_f32) (constant S2000x128 .f32 0x00000000#32))
        (matmul dot_S2000x128_S128x128_S2000x128_1_0_0_1_n_n none (truncf .bf16 x1 bitsLt_bf16_f32)
          (truncf .bf16 x3 bitsLt_bf16_f32) (constant S2000x128 .f32 0x00000000#32)))
      (broadcastTo S2000x128 x4 broadcasts_S1x128_S2000x128) : FVec Ideal S2000x128 .f32) (ix2 p q)
      = (Spec.mm x0 x2 p q + Spec.mm x1 x3 p q) + x4 (ix2 (0 : Fin 1) q) := by
  rw [addf_apply, addf_apply, dot2000_eq]
  refine congrArg₂ (· + ·) (congrArg₂ (· + ·) ?_ ?_) ?_
  · exact Cert.LibGather.matmul_plain_zero_apply none (truncf .bf16 x0 bitsLt_bf16_f32) (truncf .bf16 x2 bitsLt_bf16_f32) p q
  · exact Cert.LibGather.matmul_plain_zero_apply none (truncf .bf16 x1 bitsLt_bf16_f32) (truncf .bf16 x3 bitsLt_bf16_f32) p q
  · exact broadcastTo_1b_ab_apply x4 broadcasts_S1x128_S2000x128 p q

/-- What one grid step stores, at an entry: the gated blend of the two row blocks. -/
theorem pay2_apply (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q) = Spec.fuseRaw x0 x1 x2 x3 x4 p q := by
  unfold k2_pay1
  simp only [shapeCast_self]
  rw [addf_apply, mulf_apply, mulf_apply, subf_apply, broadcast_apply]
  show Ideal.logistic ((addf (addf _ _) _ : FVec Ideal S2000x128 .f32) (ix2 p q)) * x0 (ix2 p q)
      + (Ideal.ofBits .f32 0x3F800000#32 - Ideal.logistic ((addf (addf _ _) _ : FVec Ideal S2000x128 .f32) (ix2 p q))) * x1 (ix2 p q) = _
  rw [logit_apply, one_word]
  rfl

/-- The second blend region runs the same step. -/
theorem pay3_apply (x0 x1 : Vec Ideal S2000x128 .f32) (x2 x3 : Vec Ideal S128x128 .f32) (x4 : Vec Ideal S1x128 .f32)
    (p : Fin 2000) (q : Fin 128) :
    k3_pay1 (F := Ideal) x0 x1 x2 x3 x4 (ix2 p q) = Spec.fuseRaw x0 x1 x2 x3 x4 p q :=
  pay2_apply x0 x1 x2 x3 x4 p q

/-- A block of rows of the blend is the blend of the row blocks: entry (p, q) of a block whose row p is row r of
    both tables reads what entry (r, q) of the whole blend reads. -/
theorem fuseRaw_rows {n N : ℕ} (X M : Spec.Mat N 128) (x m : Spec.Mat n 128) (W1 W2 w1 w2 : Spec.Mat 128 128)
    (b b' : Spec.Mat 1 128) (r : Fin N) (p : Fin n)
    (hx : ∀ k, x (ix2 p k) = X (ix2 r k)) (hm : ∀ k, m (ix2 p k) = M (ix2 r k))
    (hw1 : ∀ k j, w1 (ix2 k j) = W1 (ix2 k j)) (hw2 : ∀ k j, w2 (ix2 k j) = W2 (ix2 k j))
    (hb : ∀ j, b' (ix2 (0 : Fin 1) j) = b (ix2 (0 : Fin 1) j)) (q : Fin 128) :
    Spec.fuseRaw x m w1 w2 b' p q = Spec.fuseRaw X M W1 W2 b r q := by
  unfold Spec.fuseRaw Spec.mm
  simp only [hx, hm, hw1, hw2, hb]

/-- The whole-block rectangle starts at the origin. -/
theorem hz : (![0, 0] : Fin 2 → Nat) = fun _ => 0 := funext fun a => by fin_cases a <;> rfl

variable (V : (c : Dev nD) → (b : Ref sig .tc) → Buf (Elt Ideal) ((c : Thread nD τ).loc b))

/-! ## Region 2: blocks of 2000 rows of the 200000-row table -/

/-- The windows' block indices, decided over the 100 grid points: the row windows are at block (t, 0), the weight
    and bias windows at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the first window's block at point t is row 2000 t + p of the table. -/
theorem blk2_0 (c : Dev nD) (t : Fin cfg2.N) (p : Fin 2000) (k : Fin 128) (r : Fin 200000)
    (hr : r.val = 2000 * t.val + p.val) :
    (iblk2 (F := Ideal) V c 0 t : Spec.Mat 2000 128) (ix2 p k) = (V c main_arg0 : Spec.Mat 200000 128) (ix2 r k) := by
  obtain ⟨e0, e1, -⟩ := idx2 t
  show (V c main_arg0 : Spec.Mat 200000 128) (((cfg2.win 0).blk t).view.emb (ix2 p k)) = _
  congr 1
  funext a; apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Row p of the second window's block at point t is row 2000 t + p of the mean messages. -/
theorem blk2_1 (c : Dev nD) (t : Fin cfg2.N) (p : Fin 2000) (k : Fin 128) (r : Fin 200000)
    (hr : r.val = 2000 * t.val + p.val) :
    (iblk2 (F := Ideal) V c 1 t : Spec.Mat 2000 128) (ix2 p k) = (V c main_v47 : Spec.Mat 200000 128) (ix2 r k) := by
  obtain ⟨-, -, e0, e1, -⟩ := idx2 t
  show (V c main_v47 : Spec.Mat 200000 128) (((cfg2.win 1).blk t).view.emb (ix2 p k)) = _
  congr 1
  funext a; apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- The third window's block is the whole first weight matrix at every point. -/
theorem blk2_2 (c : Dev nD) (t : Fin cfg2.N) (k j : Fin 128) :
    (iblk2 (F := Ideal) V c 2 t : Spec.Mat 128 128) (ix2 k j) = (V c main_v54 : Spec.Mat 128 128) (ix2 k j) := by
  obtain ⟨-, -, -, -, e0, e1, -⟩ := idx2 t
  show (V c main_v54 : Spec.Mat 128 128) (((cfg2.win 2).blk t).view.emb (ix2 k j)) = _
  congr 1
  funext a; apply Fin.ext
  match a with
  | ⟨0, _⟩ => show win2_2.index t (0 : Fin 2) * 128 + 1 * k.val = k.val; rw [e0]; omega
  | ⟨1, _⟩ => show win2_2.index t (1 : Fin 2) * 128 + 1 * j.val = j.val; rw [e1]; omega

/-- The fourth window's block is the whole second weight matrix at every point. -/
theorem blk2_3 (c : Dev nD) (t : Fin cfg2.N) (k j : Fin 128) :
    (iblk2 (F := Ideal) V c 3 t : Spec.Mat 128 128) (ix2 k j) = (V c main_v56 : Spec.Mat 128 128) (ix2 k j) := by
  obtain ⟨-, -, -, -, -, -, e0, e1, -⟩ := idx2 t
  show (V c main_v56 : Spec.Mat 128 128) (((cfg2.win 3).blk t).view.emb (ix2 k j)) = _
  congr 1
  funext a; apply Fin.ext
  match a with
  | ⟨0, _⟩ => show win2_3.index t (0 : Fin 2) * 128 + 1 * k.val = k.val; rw [e0]; omega
  | ⟨1, _⟩ => show win2_3.index t (1 : Fin 2) * 128 + 1 * j.val = j.val; rw [e1]; omega

/-- The fifth window's block is the whole bias row at every point. -/
theorem blk2_4 (c : Dev nD) (t : Fin cfg2.N) (j : Fin 128) :
    (iblk2 (F := Ideal) V c 4 t : Spec.Mat 1 128) (ix2 (0 : Fin 1) j) = (V c main_v57 : Spec.Mat 1 128) (ix2 (0 : Fin 1) j) := by
  obtain ⟨-, -, -, -, -, -, -, -, e0, e1, -⟩ := idx2 t
  show (V c main_v57 : Spec.Mat 1 128) (((cfg2.win 4).blk t).view.emb (ix2 (0 : Fin 1) j)) = _
  congr 1
  funext a; apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

/-- The whole blend of the 200000-row table, as the region finds its operands. -/
abbrev blend2 (c : Dev nD) : Spec.Mat 200000 128 :=
  Spec.ofFn2 (Spec.fuseRaw (V c main_arg0 : Spec.Mat 200000 128) (V c main_v47 : Spec.Mat 200000 128)
    (V c main_v54 : Spec.Mat 128 128) (V c main_v56 : Spec.Mat 128 128) (V c main_v57 : Spec.Mat 1 128))

/-- What point t writes back is block t of the whole blend. -/
theorem flushed2_eq (c : Dev nD) (t : Fin cfg2.N) :
    (dat2 (F := Ideal) V c).flushed 5 t = ((cfg2.win 5).blk t).view.read (Elt Ideal) (blend2 V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx2 t
  have ht : t.val < 100 := t.isLt.trans_eq N_2
  funext j
  obtain ⟨p, q, rfl⟩ : ∃ (p : Fin 2000) (q : Fin 128), j = ix2 p q := ⟨j 0, j 1, eq_ix2 j⟩
  have hr : 2000 * t.val + p.val < 200000 := by have := p.isLt; omega
  have hemb : ((cfg2.win 5).blk t).view.emb (ix2 p q) = (ix2 (⟨2000 * t.val + p.val, hr⟩ : Fin 200000) q : S200000x128.Idx) := by
    funext a; apply Fin.ext
    match a with
    | ⟨0, _⟩ => show win2_5.index t (0 : Fin 2) * 2000 + 1 * p.val = 2000 * t.val + p.val; rw [e0]; omega
    | ⟨1, _⟩ => show win2_5.index t (1 : Fin 2) * 128 + 1 * q.val = q.val; rw [e1]; omega
  show k2_pay1 (F := Ideal) (iblk2 V c 0 t) (iblk2 V c 1 t) (iblk2 V c 2 t) (iblk2 V c 3 t) (iblk2 V c 4 t) (ix2 p q)
      = blend2 V c (((cfg2.win 5).blk t).view.emb (ix2 p q))
  rw [hemb]
  show _ = Spec.fuseRaw (V c main_arg0 : Spec.Mat 200000 128) (V c main_v47 : Spec.Mat 200000 128)
    (V c main_v54 : Spec.Mat 128 128) (V c main_v56 : Spec.Mat 128 128) (V c main_v57 : Spec.Mat 1 128)
    (⟨2000 * t.val + p.val, hr⟩ : Fin 200000) q
  refine (pay2_apply _ _ _ _ _ p q).trans ?_
  exact fuseRaw_rows _ _ _ _ _ _ _ _ _ _ _ p
    (fun k => blk2_0 V c t p k _ rfl) (fun k => blk2_1 V c t p k _ rfl)
    (fun k j => blk2_2 V c t k j) (fun k j => blk2_3 V c t k j) (fun j => blk2_4 V c t j) q

/-- An index is in point t's block iff each coordinate is in the block's range on its axis. -/
theorem mem_blk2 (t : Fin cfg2.N) (i : S200000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v58).slice (win2_5.rect t)).set ↔ _
  rw [View.set_slice_whole, Rect.mem_set_unit]
  exact Iff.rfl

/-- Every row r of the table is in the block of the point r / 2000. -/
theorem cover2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 100 := N_2
  have hlt : (i 0).val / 2000 < cfg2.N := by rw [hN]; omega
  obtain ⟨-, -, -, -, -, -, -, -, -, -, e0, e1⟩ := idx2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [e1]; omega

/-- Region 2: the gated blend of the 200000-row table with its mean messages, block of 2000 rows by block. -/
theorem arr2 (c : Dev nD) :
    ((dat2 (F := Ideal) V c).arrAt 5 cfg2.N : Spec.Mat 200000 128)
      = Spec.ofFn2 (Spec.fuseRaw (V c main_arg0 : Spec.Mat 200000 128) (V c main_v47 : Spec.Mat 200000 128)
          (V c main_v54 : Spec.Mat 128 128) (V c main_v56 : Spec.Mat 128 128) (V c main_v57 : Spec.Mat 1 128)) :=
  (dat2 (F := Ideal) V c).arrAt_eq_of_cover 5 (blend2 V c) (fun t _ => flushed2_eq V c t) cover2

/-! ## Region 3: blocks of 2000 rows of the 50000-row table -/

/-- The windows' block indices, decided over the 25 grid points: the row windows are at block (t, 0), the weight
    and bias windows at (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the first window's block at point t is row 2000 t + p of the table. -/
theorem blk3_0 (c : Dev nD) (t : Fin cfg3.N) (p : Fin 2000) (k : Fin 128) (r : Fin 50000)
    (hr : r.val = 2000 * t.val + p.val) :
    (iblk3 (F := Ideal) V c 0 t : Spec.Mat 2000 128) (ix2 p k) = (V c main_arg1 : Spec.Mat 50000 128) (ix2 r k) := by
  obtain ⟨e0, e1, -⟩ := idx3 t
  show (V c main_arg1 : Spec.Mat 50000 128) (((cfg3.win 0).blk t).view.emb (ix2 p k)) = _
  congr 1
  funext a; apply Fin.ext
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

/-- Row p of the second window's block at point t is row 2000 t + p of the mean messages. -/
theorem blk3_1 (c : Dev nD) (t : Fin cfg3.N) (p : Fin 2000) (k : Fin 128) (r : Fin 50000)
    (hr : r.val = 2000 * t.val + p.val) :
    (iblk3 (F := Ideal) V c 1 t : Spec.Mat 2000 128) (ix2 p k) = (V c main_v52 : Spec.Mat 50000 128) (ix2 r k) := by
  obtain ⟨-, -, e0, e1, -⟩ := idx3 t
  show (V c main_v52 : Spec.Mat 50000 128) (((cfg3.win 1).blk t).view.emb (ix2 p k)) = _
  congr 1
  funext a; apply Fin.ext
  match a with
  | ⟨0, _⟩ => show win3_1.index t (0 : Fin 2) * 2000 + 1 * p.val = r.val; rw [e0, hr]; omega
  | ⟨1, _⟩ => show win3_1.index t (1 : Fin 2) * 128 + 1 * k.val = k.val; rw [e1]; omega

/-- The third window's block is the whole first weight matrix at every point. -/
theorem blk3_2 (c : Dev nD) (t : Fin cfg3.N) (k j : Fin 128) :
    (iblk3 (F := Ideal) V c 2 t : Spec.Mat 128 128) (ix2 k j) = (V c main_v54 : Spec.Mat 128 128) (ix2 k j) := by
  obtain ⟨-, -, -, -, e0, e1, -⟩ := idx3 t
  show (V c main_v54 : Spec.Mat 128 128) (((cfg3.win 2).blk t).view.emb (ix2 k j)) = _
  congr 1
  funext a; apply Fin.ext
  match a with
  | ⟨0, _⟩ => show win3_2.index t (0 : Fin 2) * 128 + 1 * k.val = k.val; rw [e0]; omega
  | ⟨1, _⟩ => show win3_2.index t (1 : Fin 2) * 128 + 1 * j.val = j.val; rw [e1]; omega

/-- The fourth window's block is the whole second weight matrix at every point. -/
theorem blk3_3 (c : Dev nD) (t : Fin cfg3.N) (k j : Fin 128) :
    (iblk3 (F := Ideal) V c 3 t : Spec.Mat 128 128) (ix2 k j) = (V c main_v56 : Spec.Mat 128 128) (ix2 k j) := by
  obtain ⟨-, -, -, -, -, -, e0, e1, -⟩ := idx3 t
  show (V c main_v56 : Spec.Mat 128 128) (((cfg3.win 3).blk t).view.emb (ix2 k j)) = _
  congr 1
  funext a; apply Fin.ext
  match a with
  | ⟨0, _⟩ => show win3_3.index t (0 : Fin 2) * 128 + 1 * k.val = k.val; rw [e0]; omega
  | ⟨1, _⟩ => show win3_3.index t (1 : Fin 2) * 128 + 1 * j.val = j.val; rw [e1]; omega

/-- The fifth window's block is the whole bias row at every point. -/
theorem blk3_4 (c : Dev nD) (t : Fin cfg3.N) (j : Fin 128) :
    (iblk3 (F := Ideal) V c 4 t : Spec.Mat 1 128) (ix2 (0 : Fin 1) j) = (V c main_v59 : Spec.Mat 1 128) (ix2 (0 : Fin 1) j) := by
  obtain ⟨-, -, -, -, -, -, -, -, e0, e1, -⟩ := idx3 t
  show (V c main_v59 : Spec.Mat 1 128) (((cfg3.win 4).blk t).view.emb (ix2 (0 : Fin 1) j)) = _
  congr 1
  funext a; apply Fin.ext
  match a with
  | ⟨0, _⟩ => show win3_4.index t (0 : Fin 2) * 1 + 1 * 0 = 0; rw [e0]
  | ⟨1, _⟩ => show win3_4.index t (1 : Fin 2) * 128 + 1 * j.val = j.val; rw [e1]; omega

/-- The whole blend of the 50000-row table, as the region finds its operands. -/
abbrev blend3 (c : Dev nD) : Spec.Mat 50000 128 :=
  Spec.ofFn2 (Spec.fuseRaw (V c main_arg1 : Spec.Mat 50000 128) (V c main_v52 : Spec.Mat 50000 128)
    (V c main_v54 : Spec.Mat 128 128) (V c main_v56 : Spec.Mat 128 128) (V c main_v59 : Spec.Mat 1 128))

/-- What point t writes back is block t of the whole blend. -/
theorem flushed3_eq (c : Dev nD) (t : Fin cfg3.N) :
    (dat3 (F := Ideal) V c).flushed 5 t = ((cfg3.win 5).blk t).view.read (Elt Ideal) (blend3 V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx3 t
  have ht : t.val < 25 := t.isLt.trans_eq N_3
  funext j
  obtain ⟨p, q, rfl⟩ : ∃ (p : Fin 2000) (q : Fin 128), j = ix2 p q := ⟨j 0, j 1, eq_ix2 j⟩
  have hr : 2000 * t.val + p.val < 50000 := by have := p.isLt; omega
  have hemb : ((cfg3.win 5).blk t).view.emb (ix2 p q) = (ix2 (⟨2000 * t.val + p.val, hr⟩ : Fin 50000) q : S50000x128.Idx) := by
    funext a; apply Fin.ext
    match a with
    | ⟨0, _⟩ => show win3_5.index t (0 : Fin 2) * 2000 + 1 * p.val = 2000 * t.val + p.val; rw [e0]; omega
    | ⟨1, _⟩ => show win3_5.index t (1 : Fin 2) * 128 + 1 * q.val = q.val; rw [e1]; omega
  show k3_pay1 (F := Ideal) (iblk3 V c 0 t) (iblk3 V c 1 t) (iblk3 V c 2 t) (iblk3 V c 3 t) (iblk3 V c 4 t) (ix2 p q)
      = blend3 V c (((cfg3.win 5).blk t).view.emb (ix2 p q))
  rw [hemb]
  show _ = Spec.fuseRaw (V c main_arg1 : Spec.Mat 50000 128) (V c main_v52 : Spec.Mat 50000 128)
    (V c main_v54 : Spec.Mat 128 128) (V c main_v56 : Spec.Mat 128 128) (V c main_v59 : Spec.Mat 1 128)
    (⟨2000 * t.val + p.val, hr⟩ : Fin 50000) q
  refine (pay3_apply _ _ _ _ _ p q).trans ?_
  exact fuseRaw_rows _ _ _ _ _ _ _ _ _ _ _ p
    (fun k => blk3_0 V c t p k _ rfl) (fun k => blk3_1 V c t p k _ rfl)
    (fun k j => blk3_2 V c t k j) (fun k j => blk3_3 V c t k j) (fun j => blk3_4 V c t j) q

/-- An index is in point t's block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v60).slice (win3_5.rect t)).set ↔ _
  rw [View.set_slice_whole, Rect.mem_set_unit]
  exact Iff.rfl

/-- Every row r of the table is in the block of the point r / 2000. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  have hlt : (i 0).val / 2000 < cfg3.N := by rw [hN]; omega
  obtain ⟨-, -, -, -, -, -, -, -, -, -, e0, e1⟩ := idx3 ⟨(i 0).val / 2000, hlt⟩
  refine ⟨⟨(i 0).val / 2000, hlt⟩, flush3_5 _, ?_⟩
  rw [mem_blk3]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, hlt⟩ (1 : Fin 2) * 128 ≤ (i 1).val ∧ (i 1).val < win3_5.index ⟨(i 0).val / 2000, hlt⟩ (1 : Fin 2) * 128 + 128
    rw [e1]; omega

/-- Region 3: the gated blend of the 50000-row table with its mean messages, block of 2000 rows by block. -/
theorem arr3 (c : Dev nD) :
    ((dat3 (F := Ideal) V c).arrAt 5 cfg3.N : Spec.Mat 50000 128)
      = Spec.ofFn2 (Spec.fuseRaw (V c main_arg1 : Spec.Mat 50000 128) (V c main_v52 : Spec.Mat 50000 128)
          (V c main_v54 : Spec.Mat 128 128) (V c main_v56 : Spec.Mat 128 128) (V c main_v59 : Spec.Mat 1 128)) :=
  (dat3 (F := Ideal) V c).arrAt_eq_of_cover 5 (blend3 V c) (fun t _ => flushed3_eq V c t) cover3

end Cert.KernelIdeal.KRegion23

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibScatter.lean ====
/-
  The host's accumulating scatter read at an index, over any extents, for the two shapes a per-row sum takes:
  rows `[E, C]` added into a table `[N, C]` at the rows an index column `[E, 1]` names, and scalars `[E]` added
  into a vector `[N]` the same way. An index word is read signed; a word outside `[0, N)` adds nothing.
-/
import Idealize.ShloMosaic.Lib.ValueIdx
import Idealize.ShloMosaic.PureOps.Ideal.Laws

noncomputable section

namespace Cert.LibScatter

open Idealize.ShloMosaic Idealize.ShloMosaic.ValueIdx

/-- Dimension numbers of a row scatter: update axis 1 is the window, operand axis 0 is inserted and indexed. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Dimension numbers of a scalar scatter into a vector: no window, operand axis 0 inserted and indexed. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The row scatter's result index -/

/-- On operand axis 0 the row scatter's start is the index word of the update's row, read signed. -/
theorem rows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not indexed: its start is `0`. -/
theorem rows_start1 {N E C w : ℕ} (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) :
    (rowScatterDims N E C wf).start u idx 1 = 0 := by
  unfold ScatterDims.start
  rw [dif_neg (show (1 : Fin 2) ∉ (rowScatterDims N E C wf).scatterDimsToOperandDims from by show (1 : Fin 2) ∉ [(0 : Fin 2)]; decide)]

/-- Operand axis 0 is inserted: its window coordinate is `0`. -/
theorem rows_window0 {N E C : ℕ} (wf : ScatterDims.WF ⟨2, ![N, C]⟩ ⟨2, ![E, 1]⟩ ⟨2, ![E, C]⟩ [1] [0] [0] 1)
    (u : (⟨2, ![E, C]⟩ : Shape).Idx) :
    (rowScatterDims N E C wf).window u 0 = 0 := by
  unfold ScatterDims.window
  rw [dif_neg (show (0 : Fin 2) ∉ (rowScatterDims N E C wf).sKept from by show (0 : Fin 2) ∉ (List.finRange 2).filter (· ∉ [(0 : Fin 2)]); decide)]

/-- Operand axis 1 takes the update's column as its window coordinate. -/
theorem rows_window1 {N E C : ℕ} (wf : ScatterDims.WF ⟨2, ![N, C]⟩ ⟨2, ![E, 1]⟩ ⟨2, ![E, C]⟩ [1] [0] [0] 1)
    (e : Fin E) (c : Fin C) :
    (rowScatterDims N E C wf).window (ix2 e c) 1 = c.val := by
  unfold ScatterDims.window
  rw [dif_pos (show (1 : Fin 2) ∈ (rowScatterDims N E C wf).sKept from by show (1 : Fin 2) ∈ (List.finRange 2).filter (· ∉ [(0 : Fin 2)]); decide)]
  rfl

/-- Update `(e, c)` of a row scatter lands at `(n, j)` exactly when row `e`'s index word, read signed, is `n` and
    `c = j`: the start is not clamped, so a word outside `[0, N)` lands nowhere, and a word `z` in range lands at
    row `z.toNat`, which is `n` iff `z = n`. -/
theorem rows_resultIdx_iff {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (j : Fin C) :
    (rowScatterDims N E C wf).resultIdx? (ix2 e c) idx = some (ix2 n j) ↔
      (idx (ix2 e (0 : Fin 1))).toInt = (n.val : ℤ) ∧ c = j := by
  have hN : (⟨2, ![N, C]⟩ : Shape).size 0 = N := rfl
  have hC : (⟨2, ![N, C]⟩ : Shape).size 1 = C := rfl
  have hn := n.isLt
  have hc := c.isLt
  unfold ScatterDims.resultIdx?
  split
  · rename_i h
    rw [Option.some.injEq]
    constructor
    · intro hEq
      have h0 : ((rowScatterDims N E C wf).start (ix2 e c) idx 0 + ((rowScatterDims N E C wf).window (ix2 e c) 0 : ℕ)).toNat = n.val :=
        congrArg (fun f => (f 0).val) hEq
      have h1 : ((rowScatterDims N E C wf).start (ix2 e c) idx 1 + ((rowScatterDims N E C wf).window (ix2 e c) 1 : ℕ)).toNat = j.val :=
        congrArg (fun f => (f 1).val) hEq
      have hr := (h 0).1
      rw [rows_start0, rows_window0] at h0 hr
      rw [rows_start1, rows_window1] at h1
      refine ⟨by omega, Fin.ext (by omega)⟩
    · rintro ⟨hz, rfl⟩
      funext a; refine Fin.ext ?_
      match a with
      | ⟨0, _⟩ =>
        show ((rowScatterDims N E C wf).start (ix2 e c) idx 0 + ((rowScatterDims N E C wf).window (ix2 e c) 0 : ℕ)).toNat = n.val
        rw [rows_start0, rows_window0, hz]; omega
      | ⟨1, _⟩ =>
        show ((rowScatterDims N E C wf).start (ix2 e c) idx 1 + ((rowScatterDims N E C wf).window (ix2 e c) 1 : ℕ)).toNat = c.val
        rw [rows_start1, rows_window1]; omega
  · rename_i h
    constructor
    · intro hh; exact absurd hh (by simp)
    · rintro ⟨hz, rfl⟩
      exfalso; apply h; intro a
      match a with
      | ⟨0, _⟩ =>
        show 0 ≤ (rowScatterDims N E C wf).start (ix2 e c) idx 0 + ((rowScatterDims N E C wf).window (ix2 e c) 0 : ℕ) ∧
          (rowScatterDims N E C wf).start (ix2 e c) idx 0 + ((rowScatterDims N E C wf).window (ix2 e c) 0 : ℕ) < ((⟨2, ![N, C]⟩ : Shape).size 0 : ℕ)
        rw [rows_start0, rows_window0, hz, hN]; omega
      | ⟨1, _⟩ =>
        show 0 ≤ (rowScatterDims N E C wf).start (ix2 e c) idx 1 + ((rowScatterDims N E C wf).window (ix2 e c) 1 : ℕ) ∧
          (rowScatterDims N E C wf).start (ix2 e c) idx 1 + ((rowScatterDims N E C wf).window (ix2 e c) 1 : ℕ) < ((⟨2, ![N, C]⟩ : Shape).size 1 : ℕ)
        rw [rows_start1, rows_window1, hC]; omega

/-! ## The vector scatter's result index -/

/-- On the vector's one axis the start is the index word of the update's position, read signed. -/
theorem vec_start0 {N E w : ℕ} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector's one axis is inserted: there is no window, the window coordinate is `0`. -/
theorem vec_window0 {N E : ℕ} (wf : ScatterDims.WF ⟨1, ![N]⟩ ⟨2, ![E, 1]⟩ ⟨1, ![E]⟩ [] [0] [0] 1)
    (u : (⟨1, ![E]⟩ : Shape).Idx) :
    (vecScatterDims N E wf).window u 0 = 0 := by
  unfold ScatterDims.window
  rw [dif_neg (show (0 : Fin 1) ∉ (vecScatterDims N E wf).sKept from by
    show (0 : Fin 1) ∉ (List.finRange 1).filter (· ∉ [(0 : Fin 1)]); decide)]

/-- Update `e` of a vector scatter lands at `n` exactly when its index word, read signed, is `n`. -/
theorem vec_resultIdx_iff {N E w : ℕ} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔
      (idx (ix2 e (0 : Fin 1))).toInt = (n.val : ℤ) := by
  have hN : (⟨1, ![N]⟩ : Shape).size 0 = N := rfl
  have hn := n.isLt
  unfold ScatterDims.resultIdx?
  split
  · rename_i h
    rw [Option.some.injEq]
    constructor
    · intro hEq
      have h0 : ((vecScatterDims N E wf).start (ix1 e) idx 0 + ((vecScatterDims N E wf).window (ix1 e) 0 : ℕ)).toNat = n.val :=
        congrArg (fun f => (f 0).val) hEq
      have hr := (h 0).1
      rw [vec_start0, vec_window0] at h0 hr
      omega
    · intro hz
      funext a; refine Fin.ext ?_
      match a with
      | ⟨0, _⟩ =>
        show ((vecScatterDims N E wf).start (ix1 e) idx 0 + ((vecScatterDims N E wf).window (ix1 e) 0 : ℕ)).toNat = n.val
        rw [vec_start0, vec_window0, hz]; omega
  · rename_i h
    constructor
    · intro hh; exact absurd hh (by simp)
    · intro hz
      exfalso; apply h; intro a
      match a with
      | ⟨0, _⟩ =>
        show 0 ≤ (vecScatterDims N E wf).start (ix1 e) idx 0 + ((vecScatterDims N E wf).window (ix1 e) 0 : ℕ) ∧
          (vecScatterDims N E wf).start (ix1 e) idx 0 + ((vecScatterDims N E wf).window (ix1 e) 0 : ℕ) < ((⟨1, ![N]⟩ : Shape).size 0 : ℕ)
        rw [vec_start0, vec_window0, hz, hN]; omega

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  refine (Fintype.sum_equiv ⟨fun i => i 0, ix1, fun i => (eq_ix1 i).symm, fun _ => rfl⟩ _ _ fun i => ?_)
  exact congrArg f (eq_ix1 i)

/-- Entry `(n, j)` after a row scatter-add: the operand's entry plus column `j` of every update row addressed to `n`. -/
theorem scatterAdd_rows_apply {N E C w : ℕ} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (j : Fin C) :
    Host.scatterAdd (F := Ideal) (rowScatterDims N E C wf) x idx upd (ix2 n j)
      = x (ix2 n j) + ∑ e : Fin E, if (idx (ix2 e (0 : Fin 1))).toInt = (n.val : ℤ) then upd (ix2 e j) else 0 := by
  -- the filtered sum over updates is the double sum over rows and columns; the column sum keeps the one term c = j
  show x (ix2 n j) + ∑ u ∈ Finset.univ.filter (fun u => (rowScatterDims N E C wf).resultIdx? u idx = some (ix2 n j)), upd u = _
  congr 1
  rw [Finset.sum_filter, sum_idx2]
  refine Finset.sum_congr rfl fun e _ => ?_
  simp only [rows_resultIdx_iff]
  by_cases hz : (idx (ix2 e (0 : Fin 1))).toInt = (n.val : ℤ)
  · simp only [hz, true_and, if_true]
    rw [Finset.sum_ite_eq' Finset.univ j (fun c => upd (ix2 e c))]
    simp
  · simp only [hz, false_and, if_false]
    exact Finset.sum_const_zero

/-- Entry `n` after a scalar scatter-add: the operand's entry plus every update addressed to `n`. -/
theorem scatterAdd_vec_apply {N E w : ℕ} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatterDims N E wf) x idx upd (ix1 n)
      = x (ix1 n) + ∑ e : Fin E, if (idx (ix2 e (0 : Fin 1))).toInt = (n.val : ℤ) then upd (ix1 e) else 0 := by
  -- the filtered sum over updates, re-indexed by the update's one coordinate
  show x (ix1 n) + ∑ u ∈ Finset.univ.filter (fun u => (vecScatterDims N E wf).resultIdx? u idx = some (ix1 n)), upd u = _
  congr 1
  rw [Finset.sum_filter, sum_idx1]
  refine Finset.sum_congr rfl fun e _ => ?_
  simp only [vec_resultIdx_iff]

end Cert.LibScatter

end
-- ==== Proof.KHostMean.lean ====
/-
  The host operations between the regions, read at an index: the transposed weights a region is handed, and the
  mean message per destination row as the kernel's program computes it from the mapped table.
-/
import proofs.«169236_j47390669144622_1_alg».proof.Proof.Gen.KernelIdeal.Frame
import proofs.«169236_j47390669144622_1_alg».proof.Proof.Spec
import proofs.«169236_j47390669144622_1_alg».proof.Proof.LibLayout
import proofs.«169236_j47390669144622_1_alg».proof.Proof.LibGather
import proofs.«169236_j47390669144622_1_alg».proof.Proof.LibScatter
import Idealize.ShloMosaic.Lib.Pipeline.Value
import Idealize.ShloMosaic.Lib.ValueLayout
import Idealize.ShloMosaic.Lib.StableHlo.Run

noncomputable section

namespace Cert.KernelIdeal.KHostMean

open Idealize.ShloMosaic Idealize.ShloMosaic.TcCoe Idealize.ShloMosaic.ValueIdx Idealize.SL.Sem Idealize.ShloMosaic.StableHlo
open Cert.KernelIdeal Cert.KernelIdeal.Gen

/-- The f32 word of `1.0` is the extended real `1`. -/
theorem ofBits_one_f32 : Ideal.ofBits .f32 0x3F800000#32 = 1 := by
  simp [Ideal.ofBits, Ideal.ieee, -EReal.coe_mul]; norm_num

/-- The host's quotient of two arrays, read at an index. -/
theorem hostDivf_apply {s : Shape} {φ : FTy} (a b : FVec Ideal s φ) (i : s.Idx) :
    Host.divf a b i = Ideal.div (a i) (b i) := rfl

section General

variable {N M E : ℕ}

/-- The scalar zero broadcast to any shape reads `0` everywhere. -/
theorem zeros_apply {t : Shape} (h : (⟨0, ![]⟩ : Shape).BroadcastsInDim t ![]) (i : t.Idx) :
    broadcastInDim t ![] h (constant (F := Ideal) ⟨0, ![]⟩ .f32 0x00000000#32) i = (0 : EReal) := by
  rw [LibLayout.broadcastInDim_scalar_apply, constant_apply, Ideal.ofBits_zero_f32]

/-- The scalar one broadcast to any shape reads `1` everywhere. -/
theorem ones_apply {t : Shape} (h : (⟨0, ![]⟩ : Shape).BroadcastsInDim t ![]) (i : t.Idx) :
    broadcastInDim t ![] h (constant (F := Ideal) ⟨0, ![]⟩ .f32 0x3F800000#32) i = (1 : EReal) := by
  rw [LibLayout.broadcastInDim_scalar_apply, constant_apply, ofBits_one_f32]

/-- An index vector made a column is the column a scatter reads. -/
theorem scol_eq (hc : (⟨1, ![E]⟩ : Shape).BroadcastsInDim ⟨2, ![E, 1]⟩ ![0]) (s : IVec ⟨1, ![E]⟩ 32) :
    broadcastInDim ⟨2, ![E, 1]⟩ ![0] hc s = Spec.sCol s := by
  funext i
  obtain ⟨e, u, rfl⟩ : ∃ e u, i = ix2 e u := ⟨i 0, i 1, eq_ix2 i⟩
  rw [LibLayout.broadcastInDim_a_a1_apply, Spec.sCol_apply]

/-- An index vector whose negative words are moved up by the table's height, made a column, is the column a
    gather reads. -/
theorem gcol_eq (hE : (⟨0, ![]⟩ : Shape).BroadcastsInDim ⟨1, ![E]⟩ ![])
    (hc : (⟨1, ![E]⟩ : Shape).BroadcastsInDim ⟨2, ![E, 1]⟩ ![0]) (Mw : BitVec 32) (g : IVec ⟨1, ![E]⟩ 32) :
    broadcastInDim ⟨2, ![E, 1]⟩ ![0] hc
        (select (cmpi .slt g (broadcastInDim ⟨1, ![E]⟩ ![] hE (constantI ⟨0, ![]⟩ 32 0#32)))
          (addi g (broadcastInDim ⟨1, ![E]⟩ ![] hE (constantI ⟨0, ![]⟩ 32 Mw))) g)
      = Spec.gCol Mw g := by
  funext i
  obtain ⟨e, u, rfl⟩ : ∃ e u, i = ix2 e u := ⟨i 0, i 1, eq_ix2 i⟩
  rw [LibLayout.broadcastInDim_a_a1_apply, Spec.gCol_apply]
  show Scalar.select (IntOp.cmpi .slt (g (ix1 e)) (broadcastInDim ⟨1, ![E]⟩ ![] hE (constantI ⟨0, ![]⟩ 32 0#32) (ix1 e)))
      (IntOp.addi (g (ix1 e)) (broadcastInDim ⟨1, ![E]⟩ ![] hE (constantI ⟨0, ![]⟩ 32 Mw) (ix1 e))) (g (ix1 e)) = _
  rw [LibLayout.broadcastInDim_scalar_apply, LibLayout.broadcastInDim_scalar_apply]
  rfl

/-- The count: ones scattered into zeros along the destination column give, at `n`, the number of messages
    addressed to `n`. -/
theorem count_apply (wfv : ScatterDims.WF ⟨1, ![N]⟩ ⟨2, ![E, 1]⟩ ⟨1, ![E]⟩ [] [0] [0] 1)
    (hN : (⟨0, ![]⟩ : Shape).BroadcastsInDim ⟨1, ![N]⟩ ![])
    (hE : (⟨0, ![]⟩ : Shape).BroadcastsInDim ⟨1, ![E]⟩ ![])
    (sc : Spec.ICol E) (n : Fin N) :
    Host.scatterAdd (F := Ideal) (LibScatter.vecScatterDims N E wfv)
        (broadcastInDim ⟨1, ![N]⟩ ![] hN (constant ⟨0, ![]⟩ .f32 0x00000000#32)) sc
        (broadcastInDim ⟨1, ![E]⟩ ![] hE (constant ⟨0, ![]⟩ .f32 0x3F800000#32)) (ix1 n)
      = Spec.cnt sc n.val := by
  rw [LibScatter.scatterAdd_vec_apply, zeros_apply, zero_add]
  unfold Spec.cnt
  refine Finset.sum_congr rfl fun e _ => ?_
  rw [ones_apply]
  by_cases h : (sc (ix2 e (0 : Fin 1))).toInt = (n.val : ℤ)
  · rw [if_pos h, if_pos (show Spec.hit sc e n.val from h)]
  · rw [if_neg h, if_neg (show ¬ Spec.hit sc e n.val from h)]

/-- The summed messages: the gathered rows scattered into zeros along the destination column give, at `(n, j)`,
    the sum over the messages addressed to `n` of column `j` of the table's row each names. -/
theorem rows_apply (hM : 0 < M)
    (wfs : ScatterDims.WF ⟨2, ![N, 128]⟩ ⟨2, ![E, 1]⟩ ⟨2, ![E, 128]⟩ [1] [0] [0] 1)
    (wfg : GatherDims.WF ⟨2, ![M, 128]⟩ ⟨2, ![E, 1]⟩ ⟨2, ![E, 128]⟩ [1] [0] [] [0] [] 1 ![1, 128])
    (hNC : (⟨0, ![]⟩ : Shape).BroadcastsInDim ⟨2, ![N, 128]⟩ ![])
    (T : Spec.Mat M 128) (sc gc : Spec.ICol E) (n : Fin N) (j : Fin 128) :
    Host.scatterAdd (F := Ideal) (φ := .f32) (LibScatter.rowScatterDims N E 128 wfs)
        (broadcastInDim ⟨2, ![N, 128]⟩ ![] hNC (constant ⟨0, ![]⟩ .f32 0x00000000#32)) sc
        (Host.gather (LibGather.rowGatherDims M E 128 wfg) T gc) (ix2 n j)
      = ∑ e : Fin E, if Spec.hit sc e n.val then T (ix2 (Spec.rowAt M hM (gc (ix2 e (0 : Fin 1)))) j) else 0 := by
  rw [LibScatter.scatterAdd_rows_apply, zeros_apply, zero_add]
  refine Finset.sum_congr rfl fun e _ => ?_
  rw [LibGather.gather_rows_apply hM]
  by_cases h : (sc (ix2 e (0 : Fin 1))).toInt = (n.val : ℤ)
  · rw [if_pos h, if_pos (show Spec.hit sc e n.val from h)]; rfl
  · rw [if_neg h, if_neg (show ¬ Spec.hit sc e n.val from h)]

/-- The mean message as the program computes it, read at `(n, j)`. -/
theorem mean_apply (hM : 0 < M)
    (wfs : ScatterDims.WF ⟨2, ![N, 128]⟩ ⟨2, ![E, 1]⟩ ⟨2, ![E, 128]⟩ [1] [0] [0] 1)
    (wfv : ScatterDims.WF ⟨1, ![N]⟩ ⟨2, ![E, 1]⟩ ⟨1, ![E]⟩ [] [0] [0] 1)
    (wfg : GatherDims.WF ⟨2, ![M, 128]⟩ ⟨2, ![E, 1]⟩ ⟨2, ![E, 128]⟩ [1] [0] [] [0] [] 1 ![1, 128])
    (hNC : (⟨0, ![]⟩ : Shape).BroadcastsInDim ⟨2, ![N, 128]⟩ ![])
    (hN : (⟨0, ![]⟩ : Shape).BroadcastsInDim ⟨1, ![N]⟩ ![])
    (hE : (⟨0, ![]⟩ : Shape).BroadcastsInDim ⟨1, ![E]⟩ ![])
    (hc : (⟨1, ![E]⟩ : Shape).BroadcastsInDim ⟨2, ![E, 1]⟩ ![0])
    (hN1 : (⟨1, ![N]⟩ : Shape).BroadcastsInDim ⟨2, ![N, 1]⟩ ![0])
    (hN1C : (⟨2, ![N, 1]⟩ : Shape).BroadcastsInDim ⟨2, ![N, 128]⟩ ![0, 1])
    (hC1 : (⟨1, ![128]⟩ : Shape).BroadcastsInDim ⟨2, ![1, 128]⟩ ![1])
    (h1CN : (⟨2, ![1, 128]⟩ : Shape).BroadcastsInDim ⟨2, ![N, 128]⟩ ![0, 1])
    (Mw : BitVec 32) (T : Spec.Mat M 128) (b : Spec.Vc 128) (g s : IVec ⟨1, ![E]⟩ 32) (n : Fin N) (j : Fin 128) :
    Host.divf (F := Ideal) (φ := .f32)
        (addf
          (Host.scatterAdd (LibScatter.rowScatterDims N E 128 wfs)
            (broadcastInDim ⟨2, ![N, 128]⟩ ![] hNC (constant ⟨0, ![]⟩ .f32 0x00000000#32))
            (broadcastInDim ⟨2, ![E, 1]⟩ ![0] hc s)
            (Host.gather (LibGather.rowGatherDims M E 128 wfg) T
              (broadcastInDim ⟨2, ![E, 1]⟩ ![0] hc
                (select (cmpi .slt g (broadcastInDim ⟨1, ![E]⟩ ![] hE (constantI ⟨0, ![]⟩ 32 0#32)))
                  (addi g (broadcastInDim ⟨1, ![E]⟩ ![] hE (constantI ⟨0, ![]⟩ 32 Mw))) g))))
          (mulf
            (broadcastInDim ⟨2, ![N, 128]⟩ ![0, 1] hN1C
              (broadcastInDim ⟨2, ![N, 1]⟩ ![0] hN1
                (Host.scatterAdd (LibScatter.vecScatterDims N E wfv)
                  (broadcastInDim ⟨1, ![N]⟩ ![] hN (constant ⟨0, ![]⟩ .f32 0x00000000#32))
                  (broadcastInDim ⟨2, ![E, 1]⟩ ![0] hc s)
                  (broadcastInDim ⟨1, ![E]⟩ ![] hE (constant ⟨0, ![]⟩ .f32 0x3F800000#32)))))
            (broadcastInDim ⟨2, ![N, 128]⟩ ![0, 1] h1CN (broadcastInDim ⟨2, ![1, 128]⟩ ![1] hC1 b))))
        (broadcastInDim ⟨2, ![N, 128]⟩ ![0, 1] hN1C
          (broadcastInDim ⟨2, ![N, 1]⟩ ![0] hN1
            (maximumf
              (Host.scatterAdd (LibScatter.vecScatterDims N E wfv)
                (broadcastInDim ⟨1, ![N]⟩ ![] hN (constant ⟨0, ![]⟩ .f32 0x00000000#32))
                (broadcastInDim ⟨2, ![E, 1]⟩ ![0] hc s)
                (broadcastInDim ⟨1, ![E]⟩ ![] hE (constant ⟨0, ![]⟩ .f32 0x3F800000#32)))
              (broadcastInDim ⟨1, ![N]⟩ ![] hN (constant ⟨0, ![]⟩ .f32 0x3F800000#32)))))
        (ix2 n j)
      = Spec.meanKT hM T b (Spec.gCol Mw g) (Spec.sCol s) n j := by
  rw [scol_eq hc s, gcol_eq hE hc Mw g, hostDivf_apply, addf_apply, mulf_apply, rows_apply hM,
    LibLayout.broadcastInDim_a1_ab_apply, LibLayout.broadcastInDim_a_a1_apply,
    LibLayout.broadcastInDim_1b_ab_apply, LibLayout.broadcastInDim_b_1b_apply,
    LibLayout.broadcastInDim_a1_ab_apply, LibLayout.broadcastInDim_a_a1_apply,
    maximumf_apply, count_apply, ones_apply]
  rfl

end General

/-! ## The program's dimension records in the general form -/

theorem scatterRows200_eq : scatter_S200000x128_S1000000x1_S1000000x128_1_0_0_1
    = LibScatter.rowScatterDims 200000 1000000 128 Facts₀.scatter_S200000x128_S1000000x1_S1000000x128_1_0_0_1_wf := rfl
theorem scatterVec200_eq : scatter_S200000_S1000000x1_S1000000_n_0_0_1
    = LibScatter.vecScatterDims 200000 1000000 Facts₀.scatter_S200000_S1000000x1_S1000000_n_0_0_1_wf := rfl
theorem gatherRows50_eq : gather_S50000x128_S1000000x1_S1000000x128_1_0_n_n_0_1_1128
    = LibGather.rowGatherDims 50000 1000000 128 Facts₀.gather_S50000x128_S1000000x1_S1000000x128_1_0_n_n_0_1_1128_wf := rfl
theorem scatterRows50_eq : scatter_S50000x128_S1000000x1_S1000000x128_1_0_0_1
    = LibScatter.rowScatterDims 50000 1000000 128 Facts₀.scatter_S50000x128_S1000000x1_S1000000x128_1_0_0_1_wf := rfl
theorem scatterVec50_eq : scatter_S50000_S1000000x1_S1000000_n_0_0_1
    = LibScatter.vecScatterDims 50000 1000000 Facts₀.scatter_S50000_S1000000x1_S1000000_n_0_0_1_wf := rfl
theorem gatherRows200_eq : gather_S200000x128_S1000000x1_S1000000x128_1_0_n_n_0_1_1128
    = LibGather.rowGatherDims 200000 1000000 128 Facts₀.gather_S200000x128_S1000000x1_S1000000x128_1_0_n_n_0_1_1128_wf := rfl

-- the buffer contents a host stretch starts from
variable (Vin : Valuation τ sig (Elt Ideal))

/-- Before region 2: the mean message per row of the 200000-row table, from the mapped 50000-row table. -/
theorem after2_v47 :
    (StableHlo.after (hostOps2 (F := Ideal)) Vin (Proc.devRef .tc main_v47) : Spec.Mat 200000 128)
      = Spec.ofFn2 (Spec.meanKT (nout := 200000) (by norm_num : 0 < 50000)
          (Vin (Proc.devRef .tc main_v3) : Spec.Mat 50000 128) (Vin (Proc.devRef .tc main_arg5) : Spec.Vc 128)
          (Spec.gCol 50000#32 (Vin (Proc.devRef .tc main_arg9))) (Spec.sCol (Vin (Proc.devRef .tc main_arg8)))) := by
  -- the buffer holds the operations' composed term over the starting contents
  after_results_simp
  funext i
  obtain ⟨n, j, rfl⟩ : ∃ n j, i = ix2 n j := ⟨i 0, i 1, eq_ix2 i⟩
  rw [Spec.ofFn2_apply, scatterRows200_eq, scatterVec200_eq, gatherRows50_eq]
  exact mean_apply (by norm_num) _ _ _ _ _ _ _ _ _ _ _ 50000#32 _ _ _ _ n j

/-- Before region 2 (read by region 3): the mean message per row of the 50000-row table, from the mapped 200000-row table. -/
theorem after2_v52 :
    (StableHlo.after (hostOps2 (F := Ideal)) Vin (Proc.devRef .tc main_v52) : Spec.Mat 50000 128)
      = Spec.ofFn2 (Spec.meanKT (nout := 50000) (by norm_num : 0 < 200000)
          (Vin (Proc.devRef .tc main_v1) : Spec.Mat 200000 128) (Vin (Proc.devRef .tc main_arg3) : Spec.Vc 128)
          (Spec.gCol 200000#32 (Vin (Proc.devRef .tc main_arg8))) (Spec.sCol (Vin (Proc.devRef .tc main_arg9)))) := by
  -- the same computation with the two tables' roles exchanged
  after_results_simp
  funext i
  obtain ⟨n, j, rfl⟩ : ∃ n j, i = ix2 n j := ⟨i 0, i 1, eq_ix2 i⟩
  rw [Spec.ofFn2_apply, scatterRows50_eq, scatterVec50_eq, gatherRows200_eq]
  exact mean_apply (by norm_num) _ _ _ _ _ _ _ _ _ _ _ 200000#32 _ _ _ _ n j

end Cert.KernelIdeal.KHostMean

end
-- ==== Proof.KHostSmall.lean ====
/-
  The host operations between the regions, read at an index: the transposed weights a region is handed, and the
  mean message per destination row as the kernel's program computes it from the mapped table.
-/
import proofs.«169236_j47390669144622_1_alg».proof.Proof.Gen.KernelIdeal.Frame
import proofs.«169236_j47390669144622_1_alg».proof.Proof.Spec
import proofs.«169236_j47390669144622_1_alg».proof.Proof.LibLayout
import proofs.«169236_j47390669144622_1_alg».proof.Proof.LibGather
import proofs.«169236_j47390669144622_1_alg».proof.Proof.LibScatter
import Idealize.ShloMosaic.Lib.Pipeline.Value
import Idealize.ShloMosaic.Lib.ValueLayout
import Idealize.ShloMosaic.Lib.StableHlo.Run

noncomputable section

namespace Cert.KernelIdeal.KHostSmall

open Idealize.ShloMosaic Idealize.ShloMosaic.TcCoe Idealize.ShloMosaic.ValueIdx Idealize.SL.Sem Idealize.ShloMosaic.StableHlo
open Cert.KernelIdeal Cert.KernelIdeal.Gen

/-- A transposed matrix, entry by entry. -/
private theorem transpose_eq {a b : ℕ} (x : Spec.Mat a b)
    (h : (⟨2, ![a, b]⟩ : Shape).Transposes [1, 0] ⟨2, ![b, a]⟩) :
    (transpose ⟨2, ![b, a]⟩ [1, 0] x h : Spec.Mat b a) = Spec.ofFn2 fun k j => x (ix2 j k) := by
  funext i
  obtain ⟨k, j, rfl⟩ : ∃ k j, i = ix2 k j := ⟨i 0, i 1, eq_ix2 i⟩
  rw [Spec.ofFn2_apply]
  exact transpose_ix2_apply x h k j

/-- The block of `m` columns starting at column `o`, transposed, entry by entry: row `k` of the result is column
    `c k = o + k` of the matrix. -/
private theorem transpose_slice_eq {n0 n1 m : ℕ} (o : ℕ) (x : Spec.Mat n0 n1)
    (hs : (⟨2, ![n0, n1]⟩ : Shape).Slices ![0, o] ⟨2, ![n0, m]⟩)
    (ht : (⟨2, ![n0, m]⟩ : Shape).Transposes [1, 0] ⟨2, ![m, n0]⟩)
    (c : Fin m → Fin n1) (hc : ∀ k, (c k).val = o + k.val) :
    (transpose ⟨2, ![m, n0]⟩ [1, 0] (extractStridedSlice ⟨2, ![n0, m]⟩ ![0, o] x hs) ht : Spec.Mat m n0)
      = Spec.ofFn2 fun k j => x (ix2 j (c k)) := by
  funext i
  obtain ⟨k, j, rfl⟩ : ∃ k j, i = ix2 k j := ⟨i 0, i 1, eq_ix2 i⟩
  rw [Spec.ofFn2_apply, transpose_ix2_apply _ ht k j]
  exact slice2_axis1_apply o x hs j k (c k) (hc k)

/-- A vector as a one-row matrix, entry by entry. -/
private theorem row_eq {a : ℕ} (x : Spec.Vc a) (h : (⟨1, ![a]⟩ : Shape).ShapeCasts ⟨2, ![1, a]⟩) :
    (shapeCast ⟨2, ![1, a]⟩ x h : Spec.Mat 1 a) = Spec.ofFn2 fun _ j => x (ix1 j) := by
  funext i
  obtain ⟨u, j, rfl⟩ : ∃ u j, i = ix2 u j := ⟨i 0, i 1, eq_ix2 i⟩
  rw [Spec.ofFn2_apply]
  exact shapeCast_a_1a_apply x h u j

-- the buffer contents a host stretch starts from
variable (Vin : Valuation τ sig (Elt Ideal))

/-- Before region 0: the forward matrix transposed. -/
theorem after0_v0 :
    (StableHlo.after (hostOps0 (F := Ideal)) Vin (Proc.devRef .tc main_v0) : Spec.Mat 128 128)
      = Spec.ofFn2 fun k j => (Vin (Proc.devRef .tc main_arg2) : Spec.Mat 128 128) (ix2 j k) := by
  after_results
  exact transpose_eq _ _

/-- Before region 1: the reverse matrix transposed. -/
theorem after1_v2 :
    (StableHlo.after (hostOps1 (F := Ideal)) Vin (Proc.devRef .tc main_v2) : Spec.Mat 128 128)
      = Spec.ofFn2 fun k j => (Vin (Proc.devRef .tc main_arg4) : Spec.Mat 128 128) (ix2 j k) := by
  after_results
  exact transpose_eq _ _

/-- Before region 2: the left half of the gate matrix, transposed. -/
theorem after2_v54 :
    (StableHlo.after (hostOps2 (F := Ideal)) Vin (Proc.devRef .tc main_v54) : Spec.Mat 128 128)
      = Spec.ofFn2 fun k j => (Vin (Proc.devRef .tc main_arg6) : Spec.Mat 128 256) (ix2 j (⟨k.val, by omega⟩ : Fin 256)) := by
  after_results_simp
  exact transpose_slice_eq 0 _ _ _ _ fun k => (Nat.zero_add _).symm

/-- Before region 2: the right half of the gate matrix, transposed. -/
theorem after2_v56 :
    (StableHlo.after (hostOps2 (F := Ideal)) Vin (Proc.devRef .tc main_v56) : Spec.Mat 128 128)
      = Spec.ofFn2 fun k j => (Vin (Proc.devRef .tc main_arg6) : Spec.Mat 128 256) (ix2 j (⟨128 + k.val, by omega⟩ : Fin 256)) := by
  after_results_simp
  exact transpose_slice_eq 128 _ _ _ _ fun _ => rfl

/-- Before region 2: the gate bias as a one-row matrix. -/
theorem after2_v57 :
    (StableHlo.after (hostOps2 (F := Ideal)) Vin (Proc.devRef .tc main_v57) : Spec.Mat 1 128)
      = Spec.ofFn2 fun _ j => (Vin (Proc.devRef .tc main_arg7) : Spec.Vc 128) (ix1 j) := by
  after_results_simp
  exact row_eq _ _

/-- Before region 3: the gate bias as a one-row matrix, again. -/
theorem after3_v59 :
    (StableHlo.after (hostOps3 (F := Ideal)) Vin (Proc.devRef .tc main_v59) : Spec.Mat 1 128)
      = Spec.ofFn2 fun _ j => (Vin (Proc.devRef .tc main_arg7) : Spec.Vc 128) (ix1 j) := by
  after_results
  exact row_eq _ _

end Cert.KernelIdeal.KHostSmall

end
-- ==== Proof.KChain.lean ====
/-
  The kernel's two result arrays as functions of the arguments: the buffer contents at each boundary of the run
  (after a stretch of host operations, after a region) followed from the launch to the return. An argument is
  never written; a region's output is the region's function of what it is handed; a host stretch's result is the
  stretch's function of the contents it starts from.
-/
import proofs.«169236_j47390669144622_1_alg».proof.Proof.Gen.KernelIdeal.Frame
import proofs.«169236_j47390669144622_1_alg».proof.Proof.Spec
import proofs.«169236_j47390669144622_1_alg».proof.Proof.SpecBridge
import proofs.«169236_j47390669144622_1_alg».proof.Proof.KRegion01
import proofs.«169236_j47390669144622_1_alg».proof.Proof.KRegion23
import proofs.«169236_j47390669144622_1_alg».proof.Proof.KHostMean
import proofs.«169236_j47390669144622_1_alg».proof.Proof.KHostSmall

noncomputable section

namespace Cert.KernelIdeal.KChain

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- No operation of the named stretch writes the buffer in question: each operation writes one buffer, another one. -/
macro "keeps " ops:ident : tactic => `(tactic| exact List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments at every boundary -/

theorem W1_arg0 : W1 m ρ c (Proc.devRef .tc main_arg0) = m ((c : Thread nD τ).loc main_arg0) :=
  (StableHlo.after_of_forall_not_mem (b := (Proc.devRef .tc main_arg0)) _ _ (by keeps hostOps0)).trans rfl
theorem W1_arg1 : W1 m ρ c (Proc.devRef .tc main_arg1) = m ((c : Thread nD τ).loc main_arg1) :=
  (StableHlo.after_of_forall_not_mem (b := (Proc.devRef .tc main_arg1)) _ _ (by keeps hostOps0)).trans rfl
theorem W1_arg3 : W1 m ρ c (Proc.devRef .tc main_arg3) = m ((c : Thread nD τ).loc main_arg3) :=
  (StableHlo.after_of_forall_not_mem (b := (Proc.devRef .tc main_arg3)) _ _ (by keeps hostOps0)).trans rfl
theorem W1_arg4 : W1 m ρ c (Proc.devRef .tc main_arg4) = m ((c : Thread nD τ).loc main_arg4) :=
  (StableHlo.after_of_forall_not_mem (b := (Proc.devRef .tc main_arg4)) _ _ (by keeps hostOps0)).trans rfl
theorem W1_arg5 : W1 m ρ c (Proc.devRef .tc main_arg5) = m ((c : Thread nD τ).loc main_arg5) :=
  (StableHlo.after_of_forall_not_mem (b := (Proc.devRef .tc main_arg5)) _ _ (by keeps hostOps0)).trans rfl
theorem W1_arg6 : W1 m ρ c (Proc.devRef .tc main_arg6) = m ((c : Thread nD τ).loc main_arg6) :=
  (StableHlo.after_of_forall_not_mem (b := (Proc.devRef .tc main_arg6)) _ _ (by keeps hostOps0)).trans rfl
theorem W1_arg7 : W1 m ρ c (Proc.devRef .tc main_arg7) = m ((c : Thread nD τ).loc main_arg7) :=
  (StableHlo.after_of_forall_not_mem (b := (Proc.devRef .tc main_arg7)) _ _ (by keeps hostOps0)).trans rfl
theorem W1_arg8 : W1 m ρ c (Proc.devRef .tc main_arg8) = m ((c : Thread nD τ).loc main_arg8) :=
  (StableHlo.after_of_forall_not_mem (b := (Proc.devRef .tc main_arg8)) _ _ (by keeps hostOps0)).trans rfl
theorem W1_arg9 : W1 m ρ c (Proc.devRef .tc main_arg9) = m ((c : Thread nD τ).loc main_arg9) :=
  (StableHlo.after_of_forall_not_mem (b := (Proc.devRef .tc main_arg9)) _ _ (by keeps hostOps0)).trans rfl
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W3_arg0 : W3 m ρ c (Proc.devRef .tc main_arg0) = m ((c : Thread nD τ).loc main_arg0) :=
  (StableHlo.after_of_forall_not_mem (b := (Proc.devRef .tc main_arg0)) _ _ (by keeps hostOps1)).trans (W2_arg0 m ρ c)
theorem W3_arg1 : W3 m ρ c (Proc.devRef .tc main_arg1) = m ((c : Thread nD τ).loc main_arg1) :=
  (StableHlo.after_of_forall_not_mem (b := (Proc.devRef .tc main_arg1)) _ _ (by keeps hostOps1)).trans (W2_arg1 m ρ c)
theorem W3_arg3 : W3 m ρ c (Proc.devRef .tc main_arg3) = m ((c : Thread nD τ).loc main_arg3) :=
  (StableHlo.after_of_forall_not_mem (b := (Proc.devRef .tc main_arg3)) _ _ (by keeps hostOps1)).trans (W2_arg3 m ρ c)
theorem W3_arg5 : W3 m ρ c (Proc.devRef .tc main_arg5) = m ((c : Thread nD τ).loc main_arg5) :=
  (StableHlo.after_of_forall_not_mem (b := (Proc.devRef .tc main_arg5)) _ _ (by keeps hostOps1)).trans (W2_arg5 m ρ c)
theorem W3_arg6 : W3 m ρ c (Proc.devRef .tc main_arg6) = m ((c : Thread nD τ).loc main_arg6) :=
  (StableHlo.after_of_forall_not_mem (b := (Proc.devRef .tc main_arg6)) _ _ (by keeps hostOps1)).trans (W2_arg6 m ρ c)
theorem W3_arg7 : W3 m ρ c (Proc.devRef .tc main_arg7) = m ((c : Thread nD τ).loc main_arg7) :=
  (StableHlo.after_of_forall_not_mem (b := (Proc.devRef .tc main_arg7)) _ _ (by keeps hostOps1)).trans (W2_arg7 m ρ c)
theorem W3_arg8 : W3 m ρ c (Proc.devRef .tc main_arg8) = m ((c : Thread nD τ).loc main_arg8) :=
  (StableHlo.after_of_forall_not_mem (b := (Proc.devRef .tc main_arg8)) _ _ (by keeps hostOps1)).trans (W2_arg8 m ρ c)
theorem W3_arg9 : W3 m ρ c (Proc.devRef .tc main_arg9) = m ((c : Thread nD τ).loc main_arg9) :=
  (StableHlo.after_of_forall_not_mem (b := (Proc.devRef .tc main_arg9)) _ _ (by keeps hostOps1)).trans (W2_arg9 m ρ c)
theorem W4_arg1 : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_arg1 m ρ c)
theorem W4_arg0 : W4 m ρ c (Proc.devRef .tc main_arg0) = m ((c : Thread nD τ).loc main_arg0) :=
  (W4_of_ne m ρ c main_arg0 (by decide)).trans (W3_arg0 m ρ c)
theorem W4_arg3 : W4 m ρ c (Proc.devRef .tc main_arg3) = m ((c : Thread nD τ).loc main_arg3) :=
  (W4_of_ne m ρ c main_arg3 (by decide)).trans (W3_arg3 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W5_arg0 : W5 m ρ c (Proc.devRef .tc main_arg0) = m ((c : Thread nD τ).loc main_arg0) :=
  (StableHlo.after_of_forall_not_mem (b := (Proc.devRef .tc main_arg0)) _ _ (by keeps hostOps2)).trans (W4_arg0 m ρ c)
theorem W5_arg1 : W5 m ρ c (Proc.devRef .tc main_arg1) = m ((c : Thread nD τ).loc main_arg1) :=
  (StableHlo.after_of_forall_not_mem (b := (Proc.devRef .tc main_arg1)) _ _ (by keeps hostOps2)).trans (W4_arg1 m ρ c)
theorem W5_arg7 : W5 m ρ c (Proc.devRef .tc main_arg7) = m ((c : Thread nD τ).loc main_arg7) :=
  (StableHlo.after_of_forall_not_mem (b := (Proc.devRef .tc main_arg7)) _ _ (by keeps hostOps2)).trans (W4_arg7 m ρ c)
theorem W6_arg1 : W6 m ρ c (Proc.devRef .tc main_arg1) = m ((c : Thread nD τ).loc main_arg1) :=
  (W6_of_ne m ρ c main_arg1 (by decide)).trans (W5_arg1 m ρ c)
theorem W6_arg7 : W6 m ρ c (Proc.devRef .tc main_arg7) = m ((c : Thread nD τ).loc main_arg7) :=
  (W6_of_ne m ρ c main_arg7 (by decide)).trans (W5_arg7 m ρ c)
theorem W7_arg1 : W7 m ρ c (Proc.devRef .tc main_arg1) = m ((c : Thread nD τ).loc main_arg1) :=
  (StableHlo.after_of_forall_not_mem (b := (Proc.devRef .tc main_arg1)) _ _ (by keeps hostOps3)).trans (W6_arg1 m ρ c)

/-! ## The mapped tables -/

/-- Region 0 is handed the forward matrix transposed. -/
theorem W1_v0 : (W1 m ρ c (Proc.devRef .tc main_v0) : Spec.Mat 128 128) = Spec.tr (m ((c : Thread nD τ).loc main_arg2)) :=
  KHostSmall.after0_v0 (W0 m ρ c)

/-- Region 0 leaves the 200000-row table mapped by the forward matrix. -/
theorem W2_v1 : (W2 m ρ c (Proc.devRef .tc main_v1) : Spec.Mat 200000 128) = Spec.ofFn2 (Spec.mm (m ((c : Thread nD τ).loc main_arg0)) (Spec.tr (m ((c : Thread nD τ).loc main_arg2)))) := by
  refine ((W2_arr m ρ c 2).trans (KRegion01.arr0 (V1 m ρ) c)).trans ?_
  show Spec.ofFn2 (Spec.mm (W1 m ρ c (Proc.devRef .tc main_arg0)) (W1 m ρ c (Proc.devRef .tc main_v0))) = _
  rw [W1_arg0 m ρ c, W1_v0 m ρ c]

theorem W3_v1 : (W3 m ρ c (Proc.devRef .tc main_v1) : Spec.Mat 200000 128) = Spec.ofFn2 (Spec.mm (m ((c : Thread nD τ).loc main_arg0)) (Spec.tr (m ((c : Thread nD τ).loc main_arg2)))) :=
  (StableHlo.after_of_forall_not_mem (b := (Proc.devRef .tc main_v1)) _ _ (by keeps hostOps1)).trans (W2_v1 m ρ c)

theorem W4_v1 : (W4 m ρ c (Proc.devRef .tc main_v1) : Spec.Mat 200000 128) = Spec.ofFn2 (Spec.mm (m ((c : Thread nD τ).loc main_arg0)) (Spec.tr (m ((c : Thread nD τ).loc main_arg2)))) :=
  (W4_of_ne m ρ c main_v1 (by decide)).trans (W3_v1 m ρ c)

/-- Region 1 is handed the reverse matrix transposed. -/
theorem W3_v2 : (W3 m ρ c (Proc.devRef .tc main_v2) : Spec.Mat 128 128) = Spec.tr (m ((c : Thread nD τ).loc main_arg4)) := by
  refine (KHostSmall.after1_v2 (W2 m ρ c)).trans ?_
  show Spec.tr (W2 m ρ c (Proc.devRef .tc main_arg4)) = _
  rw [W2_arg4 m ρ c]

/-- Region 1 leaves the 50000-row table mapped by the reverse matrix. -/
theorem W4_v3 : (W4 m ρ c (Proc.devRef .tc main_v3) : Spec.Mat 50000 128) = Spec.ofFn2 (Spec.mm (m ((c : Thread nD τ).loc main_arg1)) (Spec.tr (m ((c : Thread nD τ).loc main_arg4)))) := by
  refine ((W4_arr m ρ c 2).trans (KRegion01.arr1 (V3 m ρ) c)).trans ?_
  show Spec.ofFn2 (Spec.mm (W3 m ρ c (Proc.devRef .tc main_arg1)) (W3 m ρ c (Proc.devRef .tc main_v2))) = _
  rw [W3_arg1 m ρ c, W3_v2 m ρ c]

/-! ## The mean messages and the gate's operands -/

theorem W5_v47 : (W5 m ρ c (Proc.devRef .tc main_v47) : Spec.Mat 200000 128)
    = Spec.ofFn2 (Spec.meanKT (nout := 200000) (by norm_num : 0 < 50000) (Spec.ofFn2 (Spec.mm (m ((c : Thread nD τ).loc main_arg1)) (Spec.tr (m ((c : Thread nD τ).loc main_arg4)))))
        (m ((c : Thread nD τ).loc main_arg5)) (Spec.gCol 50000#32 (m ((c : Thread nD τ).loc main_arg9))) (Spec.sCol (m ((c : Thread nD τ).loc main_arg8)))) := by
  refine (KHostMean.after2_v47 (W4 m ρ c)).trans ?_
  rw [W4_v3 m ρ c, W4_arg5 m ρ c, W4_arg9 m ρ c, W4_arg8 m ρ c]

theorem W5_v52 : (W5 m ρ c (Proc.devRef .tc main_v52) : Spec.Mat 50000 128)
    = Spec.ofFn2 (Spec.meanKT (nout := 50000) (by norm_num : 0 < 200000) (Spec.ofFn2 (Spec.mm (m ((c : Thread nD τ).loc main_arg0)) (Spec.tr (m ((c : Thread nD τ).loc main_arg2)))))
        (m ((c : Thread nD τ).loc main_arg3)) (Spec.gCol 200000#32 (m ((c : Thread nD τ).loc main_arg8))) (Spec.sCol (m ((c : Thread nD τ).loc main_arg9)))) := by
  refine (KHostMean.after2_v52 (W4 m ρ c)).trans ?_
  rw [W4_v1 m ρ c, W4_arg3 m ρ c, W4_arg8 m ρ c, W4_arg9 m ρ c]

theorem W5_v54 : (W5 m ρ c (Proc.devRef .tc main_v54) : Spec.Mat 128 128) = Spec.trL (m ((c : Thread nD τ).loc main_arg6)) := by
  refine (KHostSmall.after2_v54 (W4 m ρ c)).trans ?_
  show Spec.trL (W4 m ρ c (Proc.devRef .tc main_arg6)) = _
  rw [W4_arg6 m ρ c]

theorem W5_v56 : (W5 m ρ c (Proc.devRef .tc main_v56) : Spec.Mat 128 128) = Spec.trR (m ((c : Thread nD τ).loc main_arg6)) := by
  refine (KHostSmall.after2_v56 (W4 m ρ c)).trans ?_
  show Spec.trR (W4 m ρ c (Proc.devRef .tc main_arg6)) = _
  rw [W4_arg6 m ρ c]

theorem W5_v57 : (W5 m ρ c (Proc.devRef .tc main_v57) : Spec.Mat 1 128) = Spec.row1 (m ((c : Thread nD τ).loc main_arg7)) := by
  refine (KHostSmall.after2_v57 (W4 m ρ c)).trans ?_
  show Spec.row1 (W4 m ρ c (Proc.devRef .tc main_arg7)) = _
  rw [W4_arg7 m ρ c]

/-! ## The first result -/

/-- Region 2 leaves the 200000-row table blended with its mean messages. -/
theorem W6_v58 : (W6 m ρ c (Proc.devRef .tc main_v58) : Spec.Mat 200000 128)
    = Spec.outK (by norm_num : 0 < 50000) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
        (Spec.gCol 50000#32 (m ((c : Thread nD τ).loc main_arg9))) (Spec.sCol (m ((c : Thread nD τ).loc main_arg8))) := by
  refine ((W6_arr m ρ c 5).trans (KRegion23.arr2 (V5 m ρ) c)).trans ?_
  show Spec.ofFn2 (Spec.fuseRaw (W5 m ρ c (Proc.devRef .tc main_arg0)) (W5 m ρ c (Proc.devRef .tc main_v47)) (W5 m ρ c (Proc.devRef .tc main_v54))
    (W5 m ρ c (Proc.devRef .tc main_v56)) (W5 m ρ c (Proc.devRef .tc main_v57))) = _
  rw [W5_arg0 m ρ c, W5_v47 m ρ c, W5_v54 m ρ c, W5_v56 m ρ c, W5_v57 m ρ c]
  exact Spec.outK_of_raw _ _ _ _ _ _ _ _ _

/-- The first result at the return: nothing after region 2 writes it. -/
theorem out0 : (W8 m ρ c (Proc.devRef .tc main_v58) : Spec.Mat 200000 128)
    = Spec.outK (by norm_num : 0 < 50000) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
        (Spec.gCol 50000#32 (m ((c : Thread nD τ).loc main_arg9))) (Spec.sCol (m ((c : Thread nD τ).loc main_arg8))) :=
  ((W8_of_ne m ρ c main_v58 (by decide)).trans
    (StableHlo.after_of_forall_not_mem (b := (Proc.devRef .tc main_v58)) _ _ (by keeps hostOps3))).trans (W6_v58 m ρ c)

/-! ## The second result -/

theorem W7_v52 : (W7 m ρ c (Proc.devRef .tc main_v52) : Spec.Mat 50000 128)
    = Spec.ofFn2 (Spec.meanKT (nout := 50000) (by norm_num : 0 < 200000) (Spec.ofFn2 (Spec.mm (m ((c : Thread nD τ).loc main_arg0)) (Spec.tr (m ((c : Thread nD τ).loc main_arg2)))))
        (m ((c : Thread nD τ).loc main_arg3)) (Spec.gCol 200000#32 (m ((c : Thread nD τ).loc main_arg8))) (Spec.sCol (m ((c : Thread nD τ).loc main_arg9)))) :=
  ((StableHlo.after_of_forall_not_mem (b := (Proc.devRef .tc main_v52)) _ _ (by keeps hostOps3)).trans
    (W6_of_ne m ρ c main_v52 (by decide))).trans (W5_v52 m ρ c)

theorem W7_v54 : (W7 m ρ c (Proc.devRef .tc main_v54) : Spec.Mat 128 128) = Spec.trL (m ((c : Thread nD τ).loc main_arg6)) :=
  ((StableHlo.after_of_forall_not_mem (b := (Proc.devRef .tc main_v54)) _ _ (by keeps hostOps3)).trans
    ((W6_arr m ρ c 2).trans (((dat2 (V5 m ρ) c).arrAt_in 2 rfl _).trans (A_eq2 (V5 m ρ) c 2)))).trans (W5_v54 m ρ c)

theorem W7_v56 : (W7 m ρ c (Proc.devRef .tc main_v56) : Spec.Mat 128 128) = Spec.trR (m ((c : Thread nD τ).loc main_arg6)) :=
  ((StableHlo.after_of_forall_not_mem (b := (Proc.devRef .tc main_v56)) _ _ (by keeps hostOps3)).trans
    ((W6_arr m ρ c 3).trans (((dat2 (V5 m ρ) c).arrAt_in 3 rfl _).trans (A_eq2 (V5 m ρ) c 3)))).trans (W5_v56 m ρ c)

theorem W7_v59 : (W7 m ρ c (Proc.devRef .tc main_v59) : Spec.Mat 1 128) = Spec.row1 (m ((c : Thread nD τ).loc main_arg7)) := by
  refine (KHostSmall.after3_v59 (W6 m ρ c)).trans ?_
  show Spec.row1 (W6 m ρ c (Proc.devRef .tc main_arg7)) = _
  rw [W6_arg7 m ρ c]

/-- Region 3 leaves the 50000-row table blended with its mean messages: the second result at the return. -/
theorem out1 : (W8 m ρ c (Proc.devRef .tc main_v60) : Spec.Mat 50000 128)
    = Spec.outK (by norm_num : 0 < 200000) (m ((c : Thread nD τ).loc main_arg1)) (m ((c : Thread nD τ).loc main_arg0)) (m ((c : Thread nD τ).loc main_arg2)) (m ((c : Thread nD τ).loc main_arg3)) (m ((c : Thread nD τ).loc main_arg6)) (m ((c : Thread nD τ).loc main_arg7))
        (Spec.gCol 200000#32 (m ((c : Thread nD τ).loc main_arg8))) (Spec.sCol (m ((c : Thread nD τ).loc main_arg9))) := by
  refine ((W8_arr m ρ c 5).trans (KRegion23.arr3 (V7 m ρ) c)).trans ?_
  show Spec.ofFn2 (Spec.fuseRaw (W7 m ρ c (Proc.devRef .tc main_arg1)) (W7 m ρ c (Proc.devRef .tc main_v52)) (W7 m ρ c (Proc.devRef .tc main_v54))
    (W7 m ρ c (Proc.devRef .tc main_v56)) (W7 m ρ c (Proc.devRef .tc main_v59))) = _
  rw [W7_arg1 m ρ c, W7_v52 m ρ c, W7_v54 m ρ c, W7_v56 m ρ c, W7_v59 m ρ c]
  exact Spec.outK_of_raw _ _ _ _ _ _ _ _ _

end Cert.KernelIdeal.KChain

end
-- ==== Proof.RValue0.lean ====
/-
  The reference's two results read entry by entry: the stages of its host program, one at a time, down to the
  plain formula of the argument arrays.
-/
import proofs.«169236_j47390669144622_1_alg».proof.Proof.Gen.ReferenceIdeal.Read
import proofs.«169236_j47390669144622_1_alg».proof.Proof.Spec
import proofs.«169236_j47390669144622_1_alg».proof.Proof.LibLayout
import proofs.«169236_j47390669144622_1_alg».proof.Proof.LibGather
import proofs.«169236_j47390669144622_1_alg».proof.Proof.LibScatter
import Idealize.ShloMosaic.Lib.Pipeline.Value
import Idealize.ShloMosaic.Lib.ValueLayout

noncomputable section

namespace Cert.ReferenceIdeal.RValue0

open Idealize.ShloMosaic Idealize.ShloMosaic.TcCoe Idealize.ShloMosaic.ValueIdx Idealize.SL.Sem
open Cert.ReferenceIdeal Cert.ReferenceIdeal.Gen Cert.ReferenceIdeal.Read

/-! ## Constants and dimension numbers -/

/-- The pattern `0x3F800000` denotes `1`. -/
theorem one_f32 : Ideal.ofBits .f32 0x3F800000#32 = 1 := by
  simp [Ideal.ofBits, Ideal.ieee, -EReal.coe_mul]; norm_num

/-- The gather's dimension numbers are those of a row gather. -/
theorem gather_eq : gather_S50000x128_S1000000x1_S1000000x128_1_0_n_n_0_1_1128
    = LibGather.rowGatherDims 50000 1000000 128 Facts₀.gather_S50000x128_S1000000x1_S1000000x128_1_0_n_n_0_1_1128_wf := rfl

/-- The row scatter's dimension numbers are those of a row scatter. -/
theorem scatter_rows_eq : scatter_S200000x128_S1000000x1_S1000000x128_1_0_0_1
    = LibScatter.rowScatterDims 200000 1000000 128 Facts₀.scatter_S200000x128_S1000000x1_S1000000x128_1_0_0_1_wf := rfl

/-- The count scatter's dimension numbers are those of a scalar scatter into a vector. -/
theorem scatter_vec_eq : scatter_S200000_S1000000x1_S1000000_n_0_0_1
    = LibScatter.vecScatterDims 200000 1000000 Facts₀.scatter_S200000_S1000000x1_S1000000_n_0_0_1_wf := rfl

/-! ## The gathered, mapped and biased messages -/

/-- The gather's index column: every word of the index vector wrapped once. -/
theorem v24_apply (x9 : IVec S1000000 32) (e : Fin 1000000) (u : Fin 1) :
    val_main_v24 (F := Ideal) x9 (ix2 e u) = Spec.gCol 50000#32 x9 (ix2 e u) := by
  have hi : idx_main_v24 (ix2 e u) = ix1 e := funext fun a => Fin.ext (by match a with | ⟨0, _⟩ => rfl)
  rw [val_main_v24_apply, hi, val_main_v23_apply, val_main_v20_apply, val_main_v22_apply, val_main_v19_apply,
    val_main_v21_apply, val_main_c_3_apply, val_main_c_4_apply]
  rfl

/-- Row `e` of the gathered table is the table's row named by the wrapped word `e`, clamped. -/
theorem v25_apply (x1 : FVec Ideal S50000x128 .f32) (x9 : IVec S1000000 32) (e : Fin 1000000) (k : Fin 128) :
    val_main_v25 (F := Ideal) x1 x9 (ix2 e k)
      = x1 (ix2 (Spec.rowAt 50000 (by norm_num) (Spec.gCol 50000#32 x9 (ix2 e (0 : Fin 1)))) k) := by
  unfold val_main_v25
  rw [gather_eq, LibGather.gather_rows_apply (by norm_num)]
  show x1 (ix2 (Spec.rowAt 50000 (by norm_num) (val_main_v24 (F := Ideal) x9 (ix2 e (0 : Fin 1)))) k) = _
  rw [v24_apply]

/-- The gathered row times the transposed matrix. -/
theorem v27_apply (x1 : FVec Ideal S50000x128 .f32) (x4 : FVec Ideal S128x128 .f32) (x9 : IVec S1000000 32)
    (e : Fin 1000000) (j : Fin 128) :
    val_main_v27 (F := Ideal) x1 x4 x9 (ix2 e j)
      = Spec.lin x1 x4 (Spec.rowAt 50000 (by norm_num) (Spec.gCol 50000#32 x9 (ix2 e (0 : Fin 1)))) j := by
  rw [val_main_v27_apply]
  unfold Spec.lin
  refine Finset.sum_congr rfl fun k _ => ?_
  have hl : lidx_main_v27 (ix2 e j) k = ix2 e k :=
    funext fun a => Fin.ext (by match a with | ⟨0, _⟩ => rfl | ⟨1, _⟩ => rfl)
  have hr : ridx_main_v27 (ix2 e j) k = ix2 k j :=
    funext fun a => Fin.ext (by match a with | ⟨0, _⟩ => rfl | ⟨1, _⟩ => rfl)
  have ht : idx_main_v26 (ix2 k j) = ix2 j k :=
    funext fun a => Fin.ext (by match a with | ⟨0, _⟩ => rfl | ⟨1, _⟩ => rfl)
  rw [hl, hr, v25_apply, val_main_v26_apply, ht]

/-- The message of edge `e`: the gathered row mapped, plus the bias. -/
theorem v30_apply (x1 : FVec Ideal S50000x128 .f32) (x4 : FVec Ideal S128x128 .f32) (x5 : FVec Ideal S128 .f32)
    (x9 : IVec S1000000 32) (e : Fin 1000000) (j : Fin 128) :
    val_main_v30 (F := Ideal) x1 x4 x5 x9 (ix2 e j)
      = Spec.lin x1 x4 (Spec.rowAt 50000 (by norm_num) (Spec.gCol 50000#32 x9 (ix2 e (0 : Fin 1)))) j + x5 (ix1 j) := by
  have h1 : idx_main_v29 (ix2 e j) = ix2 (0 : Fin 1) j :=
    funext fun a => Fin.ext (by match a with | ⟨0, _⟩ => rfl | ⟨1, _⟩ => rfl)
  have h2 : idx_main_v28 (ix2 (0 : Fin 1) j) = ix1 j := funext fun a => Fin.ext (by match a with | ⟨0, _⟩ => rfl)
  rw [val_main_v30_apply, v27_apply, val_main_v29_apply, h1, val_main_v28_apply, h2]
  rfl

/-! ## The per-destination sums, the counts and the mean message -/

/-- The scatter's index column is the destination vector as a column. -/
theorem v32_apply (x8 : IVec S1000000 32) (e : Fin 1000000) (u : Fin 1) :
    val_main_v32 (F := Ideal) x8 (ix2 e u) = Spec.sCol x8 (ix2 e u) := by
  have hi : idx_main_v32 (ix2 e u) = ix1 e := funext fun a => Fin.ext (by match a with | ⟨0, _⟩ => rfl)
  rw [val_main_v32_apply, hi]
  rfl

/-- The count scatter's index column is the same column. -/
theorem v35_apply (x8 : IVec S1000000 32) (e : Fin 1000000) (u : Fin 1) :
    val_main_v35 (F := Ideal) x8 (ix2 e u) = Spec.sCol x8 (ix2 e u) := by
  have hi : idx_main_v35 (ix2 e u) = ix1 e := funext fun a => Fin.ext (by match a with | ⟨0, _⟩ => rfl)
  rw [val_main_v35_apply, hi]
  rfl

/-- A conditional on "message `e` is addressed to `n`" spelled with the index word. -/
theorem ite_hit {E : ℕ} (s : Spec.ICol E) (e : Fin E) (n : ℕ) (a b : EReal) :
    (if (s (ix2 e (0 : Fin 1))).toInt = (n : ℤ) then a else b) = if Spec.hit s e n then a else b := by
  by_cases h : Spec.hit s e n
  · rw [if_pos h, if_pos (show (s (ix2 e (0 : Fin 1))).toInt = (n : ℤ) from h)]
  · rw [if_neg h, if_neg (show ¬ (s (ix2 e (0 : Fin 1))).toInt = (n : ℤ) from h)]

/-- The summed messages of destination `n`: the scatter starts from zero. -/
theorem v33_apply (x1 : FVec Ideal S50000x128 .f32) (x4 : FVec Ideal S128x128 .f32) (x5 : FVec Ideal S128 .f32)
    (x8 x9 : IVec S1000000 32) (n : Fin 200000) (j : Fin 128) :
    val_main_v33 (F := Ideal) x1 x4 x5 x8 x9 (ix2 n j)
      = ∑ e : Fin 1000000, if Spec.hit (Spec.sCol x8) e n.val
          then Spec.lin x1 x4 (Spec.rowAt 50000 (by norm_num) (Spec.gCol 50000#32 x9 (ix2 e (0 : Fin 1)))) j + x5 (ix1 j)
          else 0 := by
  unfold val_main_v33
  rw [scatter_rows_eq, LibScatter.scatterAdd_rows_apply, val_main_v31_apply, val_main_cst_5_apply, Ideal.ofBits_def,
    Ideal.ofBits_zero_f32, zero_add]
  refine Finset.sum_congr rfl fun e _ => ?_
  rw [v32_apply, v30_apply, ite_hit]

/-- The number of messages of destination `n`: ones scattered into zero. -/
theorem v36_apply (x8 : IVec S1000000 32) (n : Fin 200000) :
    val_main_v36 (F := Ideal) x8 (ix1 n) = Spec.cnt (Spec.sCol x8) n.val := by
  unfold val_main_v36 Spec.cnt
  rw [scatter_vec_eq, LibScatter.scatterAdd_vec_apply, val_main_v34_apply, val_main_cst_6_apply, Ideal.ofBits_def,
    Ideal.ofBits_zero_f32, zero_add]
  refine Finset.sum_congr rfl fun e _ => ?_
  rw [v35_apply, val_main_v0_apply, val_main_cst_apply, Ideal.ofBits_def, one_f32, ite_hit]

/-- The divisor at `(n, j)`: the count of destination `n`, at least one. -/
theorem v40_apply (x8 : IVec S1000000 32) (n : Fin 200000) (j : Fin 128) :
    val_main_v40 (F := Ideal) x8 (ix2 n j) = max (Spec.cnt (Spec.sCol x8) n.val) 1 := by
  have h1 : idx_main_v40 (ix2 n j) = ix2 n (0 : Fin 1) :=
    funext fun a => Fin.ext (by match a with | ⟨0, _⟩ => rfl | ⟨1, _⟩ => rfl)
  have h2 : idx_main_v39 (ix2 n (0 : Fin 1)) = ix1 n := funext fun a => Fin.ext (by match a with | ⟨0, _⟩ => rfl)
  rw [val_main_v40_apply, h1, val_main_v39_apply, h2, val_main_v38_apply, v36_apply, val_main_v37_apply,
    val_main_cst_7_apply, Ideal.ofBits_def, one_f32]
  rfl

/-- The mean message array is the reference's mean formula. -/
theorem v41_eq (x1 : FVec Ideal S50000x128 .f32) (x4 : FVec Ideal S128x128 .f32) (x5 : FVec Ideal S128 .f32)
    (x8 x9 : IVec S1000000 32) :
    (val_main_v41 (F := Ideal) x1 x4 x5 x8 x9 : Spec.Mat 200000 128)
      = Spec.ofFn2 (Spec.meanR (by norm_num : 0 < 50000) x1 x4 x5 (Spec.gCol 50000#32 x9) (Spec.sCol x8)) := by
  funext i
  obtain ⟨n, j, rfl⟩ : ∃ n j, i = ix2 n j := ⟨i 0, i 1, eq_ix2 i⟩
  rw [Spec.ofFn2_apply, val_main_v41_apply, v33_apply, v40_apply]
  rfl

/-! ## The gate and the blend -/

/-- Two `[n, 128]` arrays joined along the columns, read at `(r, k)`. -/
theorem cat_apply (x0 M : Spec.Mat 200000 128) (r : Fin 200000) (k : Fin 256) :
    concatenate S200000x256 1 [⟨S200000x128, x0⟩, ⟨S200000x128, M⟩] concatenates_S200000x128_S200000x128_S200000x256_d1 (ix2 r k)
      = Spec.cat x0 M r k := by
  unfold Spec.cat
  split
  · rename_i h
    exact concatenate_pair_apply_left 1 x0 M concatenates_S200000x128_S200000x128_S200000x256_d1 (ix2 r k) rfl
      (ix2 r ⟨k.val, h⟩) (fun b => by match b with | ⟨0, _⟩ => rfl | ⟨1, _⟩ => rfl)
  · rename_i h
    refine concatenate_pair_apply_right 1 x0 M concatenates_S200000x128_S200000x128_S200000x256_d1 (ix2 r k) rfl rfl
      (ix2 r ⟨k.val - 128, by omega⟩) (fun b hb => ?_) ?_
    · match b with
      | ⟨0, _⟩ => rfl
      | ⟨1, _⟩ => exact absurd rfl hb
    · show k.val - 128 + 128 = k.val
      omega

/-- The gate logit: the concatenated row against the gate matrix, plus the gate bias. -/
theorem v47_apply (x0 : FVec Ideal S200000x128 .f32) (x1 : FVec Ideal S50000x128 .f32) (x4 : FVec Ideal S128x128 .f32)
    (x5 : FVec Ideal S128 .f32) (x6 : FVec Ideal S128x256 .f32) (x7 : FVec Ideal S128 .f32) (x8 x9 : IVec S1000000 32)
    (r : Fin 200000) (j : Fin 128) :
    val_main_v47 (F := Ideal) x0 x1 x4 x5 x6 x7 x8 x9 (ix2 r j)
      = Spec.logitR x0 (val_main_v41 (F := Ideal) x1 x4 x5 x8 x9) x6 x7 r j := by
  have h1 : idx_main_v46 (ix2 r j) = ix2 (0 : Fin 1) j :=
    funext fun a => Fin.ext (by match a with | ⟨0, _⟩ => rfl | ⟨1, _⟩ => rfl)
  have h2 : idx_main_v45 (ix2 (0 : Fin 1) j) = ix1 j := funext fun a => Fin.ext (by match a with | ⟨0, _⟩ => rfl)
  rw [val_main_v47_apply, val_main_v46_apply, h1, val_main_v45_apply, h2, val_main_v44_apply]
  unfold Spec.logitR
  show (∑ k : Fin 256, _) + x7 (ix1 j) = _
  congr 1
  refine Finset.sum_congr rfl fun k _ => ?_
  have hl : lidx_main_v44 (ix2 r j) k = ix2 r k :=
    funext fun a => Fin.ext (by match a with | ⟨0, _⟩ => rfl | ⟨1, _⟩ => rfl)
  have hr : ridx_main_v44 (ix2 r j) k = ix2 k j :=
    funext fun a => Fin.ext (by match a with | ⟨0, _⟩ => rfl | ⟨1, _⟩ => rfl)
  have ht : idx_main_v43 (ix2 k j) = ix2 j k :=
    funext fun a => Fin.ext (by match a with | ⟨0, _⟩ => rfl | ⟨1, _⟩ => rfl)
  rw [hl, hr, val_main_v43_apply, ht]
  unfold val_main_v42
  rw [cat_apply]

/-- The gate: one over one plus the exponential of minus the logit. -/
theorem v53_apply (x0 : FVec Ideal S200000x128 .f32) (x1 : FVec Ideal S50000x128 .f32) (x4 : FVec Ideal S128x128 .f32)
    (x5 : FVec Ideal S128 .f32) (x6 : FVec Ideal S128x256 .f32) (x7 : FVec Ideal S128 .f32) (x8 x9 : IVec S1000000 32)
    (r : Fin 200000) (j : Fin 128) :
    val_main_v53 (F := Ideal) x0 x1 x4 x5 x6 x7 x8 x9 (ix2 r j)
      = Ideal.div 1 (1 + Ideal.exp (-(Spec.logitR x0 (val_main_v41 (F := Ideal) x1 x4 x5 x8 x9) x6 x7 r j))) := by
  rw [val_main_v53_apply, val_main_v52_apply, val_main_cst_9_apply, val_main_v51_apply, val_main_v50_apply,
    val_main_cst_8_apply, val_main_v49_apply, val_main_v48_apply, v47_apply, Ideal.ofBits_def, one_f32]
  rfl

/-- The first result: the 200000-row table blended with the mean of the messages gathered from the 50000-row table. -/
theorem out0 (x0 : FVec Ideal S200000x128 .f32) (x1 : FVec Ideal S50000x128 .f32) (x4 : FVec Ideal S128x128 .f32)
    (x5 : FVec Ideal S128 .f32) (x6 : FVec Ideal S128x256 .f32) (x7 : FVec Ideal S128 .f32) (x8 x9 : IVec S1000000 32) :
    (val_main_v58 (F := Ideal) x0 x1 x4 x5 x6 x7 x8 x9 : Spec.Mat 200000 128)
      = Spec.outR (by norm_num : 0 < 50000) x0 x1 x4 x5 x6 x7 (Spec.gCol 50000#32 x9) (Spec.sCol x8) := by
  funext i
  obtain ⟨r, j, rfl⟩ : ∃ r j, i = ix2 r j := ⟨i 0, i 1, eq_ix2 i⟩
  unfold Spec.outR
  rw [Spec.ofFn2_apply, ← v41_eq]
  unfold Spec.fuseR Spec.blend
  rw [val_main_v58_apply, val_main_v54_apply, val_main_v57_apply, val_main_v56_apply, v53_apply, val_main_v55_apply,
    val_main_cst_10_apply, Ideal.ofBits_def, one_f32]
  rfl

end Cert.ReferenceIdeal.RValue0

end
-- ==== Proof.RValue1.lean ====
/-
  The reference's two results read entry by entry: the stages of its host program, one at a time, down to the
  plain formula of the argument arrays.
-/
import proofs.«169236_j47390669144622_1_alg».proof.Proof.Gen.ReferenceIdeal.Read
import proofs.«169236_j47390669144622_1_alg».proof.Proof.Spec
import proofs.«169236_j47390669144622_1_alg».proof.Proof.LibLayout
import proofs.«169236_j47390669144622_1_alg».proof.Proof.LibGather
import proofs.«169236_j47390669144622_1_alg».proof.Proof.LibScatter
import Idealize.ShloMosaic.Lib.Pipeline.Value
import Idealize.ShloMosaic.Lib.ValueLayout

noncomputable section

namespace Cert.ReferenceIdeal.RValue1

open Idealize.ShloMosaic Idealize.ShloMosaic.TcCoe Idealize.ShloMosaic.ValueIdx Idealize.SL.Sem
open Cert.ReferenceIdeal Cert.ReferenceIdeal.Gen Cert.ReferenceIdeal.Read

/-! ## Indices: the composed index functions at a constructor index -/

theorem idx6 (e : Fin 1000000) (u : Fin 1) : idx_main_v6 (ix2 e u) = ix1 e :=
  funext fun a => Fin.ext (by match a with | ⟨0, _⟩ => rfl)
theorem idx14 (e : Fin 1000000) (u : Fin 1) : idx_main_v14 (ix2 e u) = ix1 e :=
  funext fun a => Fin.ext (by match a with | ⟨0, _⟩ => rfl)
theorem idx17 (e : Fin 1000000) (u : Fin 1) : idx_main_v17 (ix2 e u) = ix1 e :=
  funext fun a => Fin.ext (by match a with | ⟨0, _⟩ => rfl)
theorem lidx9 (e : Fin 1000000) (j k : Fin 128) : lidx_main_v9 (ix2 e j) k = ix2 e k :=
  funext fun a => Fin.ext (by match a with | ⟨0, _⟩ => rfl | ⟨1, _⟩ => rfl)
theorem ridx9 (e : Fin 1000000) (j k : Fin 128) : ridx_main_v9 (ix2 e j) k = ix2 k j :=
  funext fun a => Fin.ext (by match a with | ⟨0, _⟩ => rfl | ⟨1, _⟩ => rfl)
theorem idx8 (k j : Fin 128) : idx_main_v8 (ix2 k j) = ix2 j k :=
  funext fun a => Fin.ext (by match a with | ⟨0, _⟩ => rfl | ⟨1, _⟩ => rfl)
theorem idx11 (e : Fin 1000000) (j : Fin 128) : idx_main_v10 (idx_main_v11 (ix2 e j)) = ix1 j :=
  funext fun a => Fin.ext (by match a with | ⟨0, _⟩ => rfl)

/-- The bit pattern 0x3F800000 is the number one. -/
theorem one_bits : Ideal.ofBits .f32 0x3F800000#32 = (1 : EReal) := by
  simp [Ideal.ofBits, Ideal.ieee, -EReal.coe_mul]; norm_num

/-! ## The gathered and mapped rows -/

/-- The gather's index column: every word wrapped once. -/
theorem v6_eq (x8 : IVec S1000000 32) :
    (val_main_v6 (F := Ideal) x8 : Spec.ICol 1000000) = Spec.gCol 200000#32 x8 := by
  funext i
  obtain ⟨e, u, rfl⟩ : ∃ e u, i = ix2 e u := ⟨i 0, i 1, eq_ix2 i⟩
  rw [val_main_v6_apply, val_main_v5_apply, val_main_v2_apply, val_main_v4_apply, val_main_v1_apply,
    val_main_v3_apply, val_main_c_apply, val_main_c_0_apply, idx6, Spec.gCol_apply]
  rfl

theorem gather_rec_eq : gather_S200000x128_S1000000x1_S1000000x128_1_0_n_n_0_1_1128
    = LibGather.rowGatherDims 200000 1000000 128 Facts₀.gather_S200000x128_S1000000x1_S1000000x128_1_0_n_n_0_1_1128_wf := rfl

/-- The gathered table at row e, column k: the table's row the wrapped, clamped word e names. -/
theorem v7_apply (x0 : FVec Ideal S200000x128 .f32) (x8 : IVec S1000000 32) (e : Fin 1000000) (k : Fin 128) :
    val_main_v7 (F := Ideal) x0 x8 (ix2 e k)
      = x0 (ix2 (Spec.rowAt 200000 (by norm_num) (Spec.gCol 200000#32 x8 (ix2 e (0 : Fin 1)))) k) := by
  unfold val_main_v7
  rw [gather_rec_eq, v6_eq]
  exact LibGather.gather_rows_apply (by norm_num) _ x0 _ e k

/-- The mapped, biased message e at column j. -/
theorem v12_apply (x0 : FVec Ideal S200000x128 .f32) (x2 : FVec Ideal S128x128 .f32) (x3 : FVec Ideal S128 .f32)
    (x8 : IVec S1000000 32) (e : Fin 1000000) (j : Fin 128) :
    val_main_v12 (F := Ideal) x0 x2 x3 x8 (ix2 e j)
      = Spec.lin x0 x2 (Spec.rowAt 200000 (by norm_num) (Spec.gCol 200000#32 x8 (ix2 e (0 : Fin 1)))) j + x3 (ix1 j) := by
  rw [val_main_v12_apply, val_main_v9_apply, val_main_v11_apply, val_main_v10_apply, idx11]
  unfold Spec.lin
  show (∑ k : Fin 128, _) + _ = _
  congr 1
  refine Finset.sum_congr rfl fun k _ => ?_
  rw [lidx9, ridx9, val_main_v8_apply, idx8, v7_apply]

/-! ## The per-destination sums -/

theorem idx62 (n : Fin 50000) (j : Fin 128) : idx_main_v61 (idx_main_v62 (ix2 n j)) = ix1 n :=
  funext fun a => Fin.ext (by match a with | ⟨0, _⟩ => rfl)

/-- A message is addressed to row n exactly when its index word, read signed, is n. -/
theorem ite_hit {E : ℕ} (s : Spec.ICol E) (e : Fin E) (n : ℕ) (a b : EReal) :
    (if (s (ix2 e (0 : Fin 1))).toInt = (n : ℤ) then a else b) = if Spec.hit s e n then a else b :=
  if_congr Iff.rfl rfl rfl

/-- The row scatter's index column is the destination words as they are. -/
theorem v14_eq (x9 : IVec S1000000 32) : (val_main_v14 (F := Ideal) x9 : Spec.ICol 1000000) = Spec.sCol x9 := by
  funext i
  obtain ⟨e, u, rfl⟩ : ∃ e u, i = ix2 e u := ⟨i 0, i 1, eq_ix2 i⟩
  rw [val_main_v14_apply, idx14, Spec.sCol_apply]

/-- The count scatter's index column is the same. -/
theorem v17_eq (x9 : IVec S1000000 32) : (val_main_v17 (F := Ideal) x9 : Spec.ICol 1000000) = Spec.sCol x9 := by
  funext i
  obtain ⟨e, u, rfl⟩ : ∃ e u, i = ix2 e u := ⟨i 0, i 1, eq_ix2 i⟩
  rw [val_main_v17_apply, idx17, Spec.sCol_apply]

theorem scat_rec_eq : scatter_S50000x128_S1000000x1_S1000000x128_1_0_0_1
    = LibScatter.rowScatterDims 50000 1000000 128 Facts₀.scatter_S50000x128_S1000000x1_S1000000x128_1_0_0_1_wf := rfl

theorem vscat_rec_eq : scatter_S50000_S1000000x1_S1000000_n_0_0_1
    = LibScatter.vecScatterDims 50000 1000000 Facts₀.scatter_S50000_S1000000x1_S1000000_n_0_0_1_wf := rfl

/-- The summed messages of destination n at column j. -/
theorem v15_apply (x0 : FVec Ideal S200000x128 .f32) (x2 : FVec Ideal S128x128 .f32) (x3 : FVec Ideal S128 .f32)
    (x8 x9 : IVec S1000000 32) (n : Fin 50000) (j : Fin 128) :
    val_main_v15 (F := Ideal) x0 x2 x3 x8 x9 (ix2 n j)
      = ∑ e : Fin 1000000, if Spec.hit (Spec.sCol x9) e n.val then
          Spec.lin x0 x2 (Spec.rowAt 200000 (by norm_num) (Spec.gCol 200000#32 x8 (ix2 e (0 : Fin 1)))) j + x3 (ix1 j) else 0 := by
  unfold val_main_v15
  rw [scat_rec_eq, v14_eq]
  refine (LibScatter.scatterAdd_rows_apply _ _ _ _ n j).trans ?_
  rw [val_main_v13_apply, val_main_cst_1_apply]
  show Ideal.ofBits .f32 0x00000000#32 + _ = _
  rw [Ideal.ofBits_zero_f32, zero_add]
  refine Finset.sum_congr rfl fun e _ => ?_
  rw [v12_apply]
  exact ite_hit _ e n.val _ _

/-- The number of messages destination n receives. -/
theorem v18_apply (x9 : IVec S1000000 32) (n : Fin 50000) :
    val_main_v18 (F := Ideal) x9 (ix1 n) = Spec.cnt (Spec.sCol x9) n.val := by
  unfold val_main_v18
  rw [vscat_rec_eq, v17_eq]
  refine (LibScatter.scatterAdd_vec_apply _ _ _ _ n).trans ?_
  rw [val_main_v16_apply, val_main_cst_2_apply]
  show Ideal.ofBits .f32 0x00000000#32 + _ = _
  rw [Ideal.ofBits_zero_f32, zero_add]
  unfold Spec.cnt
  refine Finset.sum_congr rfl fun e _ => ?_
  rw [val_main_v0_apply, val_main_cst_apply]
  show (if _ then Ideal.ofBits .f32 0x3F800000#32 else 0) = _
  rw [one_bits]
  exact ite_hit _ e n.val _ _

/-- The mean message array. -/
theorem v63_eq (x0 : FVec Ideal S200000x128 .f32) (x2 : FVec Ideal S128x128 .f32) (x3 : FVec Ideal S128 .f32)
    (x8 x9 : IVec S1000000 32) :
    (val_main_v63 (F := Ideal) x0 x2 x3 x8 x9 : Spec.Mat 50000 128)
      = Spec.ofFn2 (Spec.meanR (by norm_num : 0 < 200000) x0 x2 x3 (Spec.gCol 200000#32 x8) (Spec.sCol x9)) := by
  funext i
  obtain ⟨n, j, rfl⟩ : ∃ n j, i = ix2 n j := ⟨i 0, i 1, eq_ix2 i⟩
  rw [Spec.ofFn2_apply, val_main_v63_apply, val_main_v62_apply, val_main_v61_apply, idx62, val_main_v60_apply,
    val_main_v59_apply, val_main_cst_11_apply, v15_apply, v18_apply]
  unfold Spec.meanR
  show Ideal.div _ (max _ (Ideal.ofBits .f32 0x3F800000#32)) = _
  rw [one_bits]

/-! ## The gate and the blend -/

theorem lidx66 (r : Fin 50000) (j : Fin 128) (k : Fin 256) : lidx_main_v66 (ix2 r j) k = ix2 r k :=
  funext fun a => Fin.ext (by match a with | ⟨0, _⟩ => rfl | ⟨1, _⟩ => rfl)
theorem ridx66 (r : Fin 50000) (j : Fin 128) (k : Fin 256) : ridx_main_v66 (ix2 r j) k = ix2 k j :=
  funext fun a => Fin.ext (by match a with | ⟨0, _⟩ => rfl | ⟨1, _⟩ => rfl)
theorem idx65 (k : Fin 256) (j : Fin 128) : idx_main_v65 (ix2 k j) = ix2 j k :=
  funext fun a => Fin.ext (by match a with | ⟨0, _⟩ => rfl | ⟨1, _⟩ => rfl)
theorem idx68 (r : Fin 50000) (j : Fin 128) : idx_main_v67 (idx_main_v68 (ix2 r j)) = ix1 j :=
  funext fun a => Fin.ext (by match a with | ⟨0, _⟩ => rfl)

/-- The concatenated row: the table's row for the first 128 columns, the mean message for the rest. -/
theorem v64_apply (x0 : FVec Ideal S200000x128 .f32) (x1 : FVec Ideal S50000x128 .f32) (x2 : FVec Ideal S128x128 .f32)
    (x3 : FVec Ideal S128 .f32) (x8 x9 : IVec S1000000 32) (r : Fin 50000) (k : Fin 256) :
    val_main_v64 (F := Ideal) x0 x1 x2 x3 x8 x9 (ix2 r k)
      = Spec.cat x1 (val_main_v63 (F := Ideal) x0 x2 x3 x8 x9) r k := by
  unfold val_main_v64 Spec.cat
  generalize val_main_v63 (F := Ideal) x0 x2 x3 x8 x9 = M
  split
  · rename_i h
    exact concatenate_pair_apply_left (t := S50000x256) (s₁ := S50000x128) (s₂ := S50000x128) 1 x1 M _ (ix2 r k) rfl
      (ix2 r ⟨k.val, h⟩) (fun b => by match b with | ⟨0, _⟩ => rfl | ⟨1, _⟩ => rfl)
  · rename_i h
    exact concatenate_pair_apply_right (t := S50000x256) (s₁ := S50000x128) (s₂ := S50000x128) 1 x1 M _ (ix2 r k) rfl rfl
      (ix2 r ⟨k.val - 128, by omega⟩)
      (fun b hb => by match b, hb with | ⟨0, _⟩, _ => rfl | ⟨1, _⟩, hb => exact absurd rfl hb)
      (by show (k.val - 128) + 128 = k.val; omega)

/-- The gate's logit. -/
theorem v69_apply (x0 : FVec Ideal S200000x128 .f32) (x1 : FVec Ideal S50000x128 .f32) (x2 : FVec Ideal S128x128 .f32)
    (x3 : FVec Ideal S128 .f32) (x6 : FVec Ideal S128x256 .f32) (x7 : FVec Ideal S128 .f32) (x8 x9 : IVec S1000000 32)
    (r : Fin 50000) (j : Fin 128) :
    val_main_v69 (F := Ideal) x0 x1 x2 x3 x6 x7 x8 x9 (ix2 r j)
      = Spec.logitR x1 (val_main_v63 (F := Ideal) x0 x2 x3 x8 x9) x6 x7 r j := by
  rw [val_main_v69_apply, val_main_v66_apply, val_main_v68_apply, val_main_v67_apply, idx68]
  unfold Spec.logitR
  show (∑ k : Fin 256, _) + _ = _
  congr 1
  refine Finset.sum_congr rfl fun k _ => ?_
  rw [lidx66, ridx66, val_main_v65_apply, idx65, v64_apply]

/-- The second result: the 50000-row table blended with the mean of the messages gathered from the 200000-row table. -/
theorem out1 (x0 : FVec Ideal S200000x128 .f32) (x1 : FVec Ideal S50000x128 .f32) (x2 : FVec Ideal S128x128 .f32)
    (x3 : FVec Ideal S128 .f32) (x6 : FVec Ideal S128x256 .f32) (x7 : FVec Ideal S128 .f32) (x8 x9 : IVec S1000000 32) :
    (val_main_v80 (F := Ideal) x0 x1 x2 x3 x6 x7 x8 x9 : Spec.Mat 50000 128)
      = Spec.outR (by norm_num : 0 < 200000) x1 x0 x2 x3 x6 x7 (Spec.gCol 200000#32 x8) (Spec.sCol x9) := by
  funext i
  obtain ⟨r, j, rfl⟩ : ∃ r j, i = ix2 r j := ⟨i 0, i 1, eq_ix2 i⟩
  unfold Spec.outR
  rw [Spec.ofFn2_apply, ← v63_eq]
  unfold Spec.fuseR Spec.blend
  rw [val_main_v80_apply, val_main_v76_apply, val_main_v79_apply, val_main_v78_apply, val_main_v75_apply,
    val_main_v73_apply, val_main_v71_apply, val_main_v70_apply, v69_apply, val_main_v77_apply, val_main_v74_apply,
    val_main_v72_apply, val_main_cst_12_apply, val_main_cst_13_apply, val_main_cst_14_apply]
  simp only [Ideal.ofBits_def, Ideal.addf_def, Ideal.subf_def, Ideal.mulf_def, Ideal.hostDivf_def, Ideal.hostNegf_def,
    Ideal.negf_def, Ideal.hostUnary_exp_def, one_bits]

end Cert.ReferenceIdeal.RValue1

end
-- ==== Proof.Algebra.lean ====
/-
  The algebra that joins the two programs.

  Per destination the reference sums `x_e · Wᵀ + b` over the messages `e` it receives; the kernel sums `x_e · Wᵀ`
  and adds `count · b`. Over real numbers the two agree (a finite sum of `t_e + b` is the sum of the `t_e` plus the
  number of terms times `b`); over the extended reals this needs every term real, which is what finiteness of the
  table, the matrix and the bias gives. The gate's 256-term product of the concatenated row splits into the two
  128-term products with no condition (only commutativity and associativity of the sum), and the logistic
  function is `1 / (1 + exp (−z))` by definition.
-/
import proofs.«169236_j47390669144622_1_alg».proof.Proof.Spec

noncomputable section

namespace Cert.Algebra

open Idealize.ShloMosaic Idealize.ShloMosaic.ValueIdx Cert.Spec

/-- A finite sum of real numbers, read in the extended reals, is the extended-real sum of the terms. -/
theorem coe_sum {ι : Type} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- A row of a real table against a row of a real matrix is a real number. -/
theorem lin_real {n : ℕ} (X : Mat n 128) (W : Mat 128 128) (hX : Fin2 X) (hW : Fin2 W) (r : Fin n) (j : Fin 128) :
    ∃ t : ℝ, lin X W r j = (t : EReal) := by
  choose x hx using hX
  choose w hw using hW
  refine ⟨∑ k : Fin 128, x (ix2 r k) * w (ix2 j k), ?_⟩
  unfold lin
  rw [← coe_sum]
  refine Finset.sum_congr rfl fun k _ => ?_
  rw [hx, hw, EReal.coe_mul]

/-- Over real terms: the selected sum of the `t i`, plus the number of selected terms times `β`, is the selected
    sum of the `t i + β`. -/
theorem sum_ite_add {ι : Type} [Fintype ι] (p : ι → Prop) [DecidablePred p] (t : ι → ℝ) (β : ℝ) :
    (∑ i, if p i then (t i : EReal) else 0) + (∑ i, if p i then (1 : EReal) else 0) * (β : EReal)
      = ∑ i, if p i then (t i : EReal) + (β : EReal) else 0 := by
  have h1 : (∑ i, if p i then (t i : EReal) else 0) = ((∑ i, if p i then t i else 0 : ℝ) : EReal) := by
    rw [← coe_sum]
    refine Finset.sum_congr rfl fun i _ => ?_
    split_ifs
    · rfl
    · exact EReal.coe_zero.symm
  have h2 : (∑ i, if p i then (1 : EReal) else 0) = ((∑ i, if p i then (1 : ℝ) else 0 : ℝ) : EReal) := by
    rw [← coe_sum]
    refine Finset.sum_congr rfl fun i _ => ?_
    split_ifs
    · exact EReal.coe_one.symm
    · exact EReal.coe_zero.symm
  have h3 : (∑ i, if p i then (t i : EReal) + (β : EReal) else 0)
      = ((∑ i, if p i then t i + β else 0 : ℝ) : EReal) := by
    rw [← coe_sum]
    refine Finset.sum_congr rfl fun i _ => ?_
    split_ifs
    · exact (EReal.coe_add _ _).symm
    · exact EReal.coe_zero.symm
  rw [h1, h2, h3, ← EReal.coe_mul, ← EReal.coe_add]
  congr 1
  rw [Finset.sum_mul, ← Finset.sum_add_distrib]
  refine Finset.sum_congr rfl fun i _ => ?_
  split_ifs <;> ring

/-- The 256-term product of a concatenated row is the sum of the two 128-term products of its halves. -/
theorem sum_cat {n : ℕ} (X M : Mat n 128) (Wg : Mat 128 256) (r : Fin n) (j : Fin 128) :
    (∑ k : Fin 256, cat X M r k * Wg (ix2 j k))
      = (∑ k : Fin 128, X (ix2 r k) * Wg (ix2 j (⟨k.val, by omega⟩ : Fin 256)))
        + (∑ k : Fin 128, M (ix2 r k) * Wg (ix2 j (⟨128 + k.val, by omega⟩ : Fin 256))) := by
  have h := Fin.sum_univ_add (a := 128) (b := 128) (fun k : Fin (128 + 128) => cat X M r k * Wg (ix2 j k))
  refine h.trans (congrArg₂ (· + ·) ?_ ?_)
  · refine Finset.sum_congr rfl fun k _ => ?_
    have hk : (Fin.castAdd 128 k : Fin (128 + 128)).val < 128 := k.isLt
    unfold cat
    rw [dif_pos hk]
    rfl
  · refine Finset.sum_congr rfl fun k _ => ?_
    have e : (Fin.natAdd 128 k : Fin (128 + 128)).val = 128 + k.val := Fin.coe_natAdd 128 k
    have hk : ¬ (Fin.natAdd 128 k : Fin (128 + 128)).val < 128 := by omega
    unfold cat
    rw [dif_neg hk]
    have hi : (⟨(Fin.natAdd 128 k : Fin (128 + 128)).val - 128, by omega⟩ : Fin 128) = k :=
      Fin.ext (by show (Fin.natAdd 128 k : Fin (128 + 128)).val - 128 = k.val; omega)
    rw [hi]
    rfl

/-- The two mean messages agree when table, matrix and bias are real. -/
theorem mean_eq {nin nout E : ℕ} (hin : 0 < nin) (X : Mat nin 128) (W : Mat 128 128) (b : Vc 128) (g s : ICol E)
    (hX : Fin2 X) (hW : Fin2 W) (hb : Fin1 b) (n : Fin nout) (j : Fin 128) :
    meanK hin X W b g s n j = meanR hin X W b g s n j := by
  unfold meanK meanR
  refine congrArg (Ideal.div · _) ?_
  obtain ⟨β, hβ⟩ := hb (ix1 j)
  choose t ht using fun e : Fin E => lin_real X W hX hW (rowAt nin hin (g (ix2 e (0 : Fin 1)))) j
  unfold cnt
  simp only [ht, hβ]
  exact sum_ite_add (fun e : Fin E => hit s e n.val) t β

/-- The two gate logits agree: the concatenated product is the sum of its two halves. -/
theorem logit_eq {n : ℕ} (X M : Mat n 128) (Wg : Mat 128 256) (bg : Vc 128) (r : Fin n) (j : Fin 128) :
    logitK X M Wg bg r j = logitR X M Wg bg r j := by
  unfold logitK logitR
  rw [sum_cat]

/-- The two blends agree on any row and mean. -/
theorem fuse_eq {n : ℕ} (X M : Mat n 128) (Wg : Mat 128 256) (bg : Vc 128) (r : Fin n) (j : Fin 128) :
    fuseK X M Wg bg r j = fuseR X M Wg bg r j := by
  unfold fuseK fuseR
  rw [logit_eq]
  rfl

/-- The two results agree when the gathered table, its matrix and its bias are real. -/
theorem out_eq {nin nout E : ℕ} (hin : 0 < nin) (Y : Mat nout 128) (X : Mat nin 128) (W : Mat 128 128) (b : Vc 128)
    (Wg : Mat 128 256) (bg : Vc 128) (g s : ICol E) (hX : Fin2 X) (hW : Fin2 W) (hb : Fin1 b) :
    outK hin Y X W b Wg bg g s = outR hin Y X W b Wg bg g s := by
  unfold outK outR
  have hm : ofFn2 (meanK (nout := nout) hin X W b g s) = ofFn2 (meanR (nout := nout) hin X W b g s) :=
    congrArg ofFn2 (funext fun n => funext fun j => mean_eq hin X W b g s hX hW hb n j)
  rw [hm]
  exact congrArg ofFn2 (funext fun r => funext fun j => fuse_eq Y _ Wg bg r j)

end Cert.Algebra

end
-- ==== Proof.Finite.lean ====
/-
  From the precondition to real entries: `|x| < +∞` at every entry of a float argument says the entry is a real number.
-/
import proofs.«169236_j47390669144622_1_alg».proof.Pre_finite_inputs
import proofs.«169236_j47390669144622_1_alg».proof.Proof.Gen.Pre_finite_inputs
import proofs.«169236_j47390669144622_1_alg».proof.Proof.Spec
import Idealize.ShloMosaic.Lib.ReduceAll
import Idealize.ShloMosaic.PureOps.Ideal.Laws

noncomputable section

namespace Cert.Finite

open Idealize.ShloMosaic Idealize.ShloMosaic.ValueIdx Cert.Spec

/-- The f32 pattern `0x7F800000` (exponent all ones, fraction zero, sign clear) denotes `+∞`. -/
theorem ofBits_inf : Ideal.ofBits .f32 0x7F800000#32 = (⊤ : EReal) := by simp [Ideal.ofBits, Ideal.ieee]

/-- `max a (-a) < +∞` rules out both infinities: `max ⊥ ⊤ = max ⊤ ⊥ = ⊤`, so `a` is a real. -/
theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | top => exact absurd h (by simp [Ideal.cmp])
  | coe r => exact ⟨r, rfl⟩

/-- One conjunct of the precondition, for an array of any shape: if the conjunction over all entries of
    `|x| < +∞` is 1, every entry of `x` is a real. The result of the reduction has rank 0, so every entry
    reduces into its one index. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x)
          (broadcastInDim s ![] hb (constant Cert.Pre_finite_inputs.S_ .f32 0x7F800000#32))) init hr hu ix0 = 1#1)
    (i : s.Idx) : ∃ r : ℝ, x i = (r : EReal) :=
  real_of_abs_lt_top (x i) (Host.reduce_andi_eq_one _ init hr hu ix0 e i (funext fun d => d.elim0))

/-- Where the precondition is all ones, the two tables, the two 128 x 128 matrices and their two biases hold reals. -/
theorem finite_of_pre (a0 : FVec Ideal Cert.Pre_finite_inputs.S200000x128 .f32) (a1 : FVec Ideal Cert.Pre_finite_inputs.S50000x128 .f32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128 .f32)
    (a6 : FVec Ideal Cert.Pre_finite_inputs.S128x256 .f32) (a7 : FVec Ideal Cert.Pre_finite_inputs.S128 .f32)
    (a8 a9 : IVec Cert.Pre_finite_inputs.S1000000 32)
    (h : Cert.Pre_finite_inputs.fn (F := Ideal) a0 a1 a2 a3 a4 a5 a6 a7 a8 a9 = fun _ => 1#1) :
    Fin2 a0 ∧ Fin2 a1 ∧ Fin2 a2 ∧ Fin1 a3 ∧ Fin2 a4 ∧ Fin1 a5 := by
  -- the precondition at its one index is a conjunction of eight scalars, nested to the left
  have h0 := congrFun h ValueIdx.ix0
  dsimp only [Cert.Pre_finite_inputs.fn, Cert.Pre_finite_inputs.fn_part1, Cert.Pre_finite_inputs.fn_part2] at h0
  -- the last two conjuncts (the third matrix and its bias) are not needed
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5⟩

end Cert.Finite

end
-- ==== Proof.lean ====
/-
  The certificate: the kernel — two table-wide matrix products, a gather and a per-destination sum on the host, and
  two gated blends — computes, over the extended reals and on finite inputs, what the reference computes edge by
  edge.

  Both results are read down to plain formulas of the argument arrays (Spec.lean). The kernel's side follows the
  buffer contents through the four regions and the host operations between them (KChain.lean over KRegion*.lean
  and KHost*.lean); the reference's side reads its host program stage by stage (RValue*.lean). The two formulas
  agree because a matrix applied to a gathered row is the gathered row of the mapped table, because a sum of
  `t + b` over the messages a destination receives is the sum of the `t` plus the count times `b` when all are
  real (Algebra.lean; this is where the precondition is used, through Finite.lean), and because the gate's
  256-term product splits into its two halves.
-/
import proofs.«169236_j47390669144622_1_alg».proof.Defs
import proofs.«169236_j47390669144622_1_alg».proof.Proof.Gen.Kernel
import proofs.«169236_j47390669144622_1_alg».proof.Proof.Gen.Kernel.Skeleton
import proofs.«169236_j47390669144622_1_alg».proof.Proof.Gen.Kernel.Launch
import proofs.«169236_j47390669144622_1_alg».proof.Proof.Gen.Kernel.Points
import proofs.«169236_j47390669144622_1_alg».proof.Proof.Gen.Kernel.Frame
import proofs.«169236_j47390669144622_1_alg».proof.Proof.Gen.KernelIdeal
import proofs.«169236_j47390669144622_1_alg».proof.Proof.Gen.KernelIdeal.Skeleton
import proofs.«169236_j47390669144622_1_alg».proof.Proof.Gen.KernelIdeal.Launch
import proofs.«169236_j47390669144622_1_alg».proof.Proof.Gen.KernelIdeal.Points
import proofs.«169236_j47390669144622_1_alg».proof.Proof.Gen.KernelIdeal.Frame
import proofs.«169236_j47390669144622_1_alg».proof.Proof.Gen.ReferenceIdeal
import proofs.«169236_j47390669144622_1_alg».proof.Proof.Gen.ReferenceIdeal.Run
import proofs.«169236_j47390669144622_1_alg».proof.Proof.Gen.ReferenceIdeal.Read
import proofs.«169236_j47390669144622_1_alg».proof.Proof.Gen.Pre_finite_inputs
import proofs.«169236_j47390669144622_1_alg».proof.Proof.KRun
import proofs.«169236_j47390669144622_1_alg».proof.Proof.KChain
import proofs.«169236_j47390669144622_1_alg».proof.Proof.RValue0
import proofs.«169236_j47390669144622_1_alg».proof.Proof.RValue1
import proofs.«169236_j47390669144622_1_alg».proof.Proof.Algebra
import proofs.«169236_j47390669144622_1_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with each table blended with the mean of the messages it receives: the kernel's formula,
    which on real inputs is the reference's. -/
theorem algebraic : Cert.algebraic_KernelIdeal_ReferenceIdeal := by
  intro m ρ m' ρ' hpre hagree
  refine ⟨fun c => Spec.outK (by norm_num : 0 < 50000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (Spec.gCol 50000#32 (m ((c.tc : Thread Cert.KernelIdeal.nD Cert.KernelIdeal.τ).loc Cert.KernelIdeal.main_arg9)))
      (Spec.sCol (m ((c.tc : Thread Cert.KernelIdeal.nD Cert.KernelIdeal.τ).loc Cert.KernelIdeal.main_arg8))),
    fun c => Spec.outK (by norm_num : 0 < 200000)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (Spec.gCol 200000#32 (m ((c.tc : Thread Cert.KernelIdeal.nD Cert.KernelIdeal.τ).loc Cert.KernelIdeal.main_arg8)))
      (Spec.sCol (m ((c.tc : Thread Cert.KernelIdeal.nD Cert.KernelIdeal.τ).loc Cert.KernelIdeal.main_arg9))), ?_, ?_⟩
  · -- the kernel: its named run, each result array read through the run's boundaries
    exact (θ_run Cert.KernelIdeal.defs _ _).mono
      (fun _ h c => ⟨(h c).1.trans (Cert.KernelIdeal.KChain.out0 m ρ c), (h c).2.1.trans (Cert.KernelIdeal.KChain.out1 m ρ c), (h c).2.2⟩)
      (Cert.KernelIdeal.KRun.run_named (F := Ideal) m ρ)
  · -- the reference: its run, each result read stage by stage, the arguments those of the kernel
    refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9⟩ := hagree c
      obtain ⟨f0, f1, f2, f3, f4, f5⟩ := Cert.Finite.finite_of_pre _ _ _ _ _ _ _ _ _ _ (hpre c)
      rw [Cert.ReferenceIdeal.Read.val_main_v58_eq, Cert.ReferenceIdeal.RValue0.out0, h0, h1, h4, h5, h6, h7, h8, h9]
      exact (Cert.Algebra.out_eq _ _ _ _ _ _ _ _ _ f1 f4 f5).symm
    · obtain ⟨h0, h1, h2, h3, h4, h5, h6, h7, h8, h9⟩ := hagree c
      obtain ⟨f0, f1, f2, f3, f4, f5⟩ := Cert.Finite.finite_of_pre _ _ _ _ _ _ _ _ _ _ (hpre c)
      rw [Cert.ReferenceIdeal.Read.val_main_v80_eq, Cert.ReferenceIdeal.RValue1.out1, h0, h1, h2, h3, h6, h7, h8, h9]
      exact (Cert.Algebra.out_eq _ _ _ _ _ _ _ _ _ f0 f2 f3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
